-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg2 : IVec S2x640000 32) (main_v47 : IVec S_ 1) (main_v49 : IVec S2x640000 1) (main_c_19 : IVec S_ 1) : IVec S_ 1 :=
  let main_v50 : IVec S_ 1 := (fun x v => Host.reduce IntOp.andi x v reducesTo_S2x640000_S_d0_1 h_S_) main_v49 main_c_19
  let main_v51 : IVec S_ 1 := andi main_v47 main_v50
  let main_c_20 : IVec S_ 32 := constantI S_ 32 4294867296#32
  let main_v52 : IVec S2x640000 32 := broadcastInDim S2x640000 ![] bcast_S_S2x640000 main_c_20
  let main_v53 : IVec S2x640000 1 := cmpi .sge main_arg2 main_v52
  let main_c_21 : IVec S_ 1 := constantI S_ 1 1#1
  let main_v54 : IVec S_ 1 := (fun x v => Host.reduce IntOp.andi x v reducesTo_S2x640000_S_d0_1 h_S_) main_v53 main_c_21
  let main_v55 : IVec S_ 1 := andi main_v51 main_v54
  let main_c_22 : IVec S_ 32 := constantI S_ 32 100000#32
  let main_v56 : IVec S2x640000 32 := broadcastInDim S2x640000 ![] bcast_S_S2x640000 main_c_22
  let main_v57 : IVec S2x640000 1 := cmpi .slt main_arg2 main_v56
  let main_c_23 : IVec S_ 1 := constantI S_ 1 1#1
  let main_v58 : IVec S_ 1 := (fun x v => Host.reduce IntOp.andi x v reducesTo_S2x640000_S_d0_1 h_S_) main_v57 main_c_23
  let main_v59 : IVec S_ 1 := andi main_v55 main_v58
  main_v59

def fn_part2 {F : FTy → Type} [FloatOps F] (main_arg1 : IVec S2x640000 32) (main_arg2 : IVec S2x640000 32) (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 4294867296#32
  let main_v44 : IVec S2x640000 32 := broadcastInDim S2x640000 ![] bcast_S_S2x640000 main_c_16
  let main_v45 : IVec S2x640000 1 := cmpi .sge main_arg1 main_v44
  let main_c_17 : IVec S_ 1 := constantI S_ 1 1#1
  let main_v46 : IVec S_ 1 := (fun x v => Host.reduce IntOp.andi x v reducesTo_S2x640000_S_d0_1 h_S_) main_v45 main_c_17
  let main_v47 : IVec S_ 1 := andi main_v43 main_v46
  let main_c_18 : IVec S_ 32 := constantI S_ 32 100000#32
  let main_v48 : IVec S2x640000 32 := broadcastInDim S2x640000 ![] bcast_S_S2x640000 main_c_18
  let main_v49 : IVec S2x640000 1 := cmpi .slt main_arg1 main_v48
  let main_c_19 : IVec S_ 1 := constantI S_ 1 1#1
  fn_part3 (F := F) main_arg2 main_v47 main_v49 main_c_19

def fn_part1 {F : FTy → Type} [FloatOps F] (main_arg1 : IVec S2x640000 32) (main_arg2 : IVec S2x640000 32) (main_arg6 : FVec F S4 .f32) (main_arg7 : FVec F S128x128 .f32) (main_arg8 : FVec F S128 .f32) (main_arg9 : FVec F S128x1 .f32) (main_arg10 : FVec F S1 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S100000x128 .f32) (main_arg1 : IVec S2x640000 32) (main_arg2 : IVec S2x640000 32) (main_arg3 : FVec F S128x128 .f32) (main_arg4 : FVec F S128 .f32) (main_arg5 : FVec F S128x4 .f32) (main_arg6 : FVec F S4 .f32) (main_arg7 : FVec F S128x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x4 .f32 := Host.absf main_arg5
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg1 main_arg2 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S128x256 : Shape := ⟨2, ![128, 256]⟩
abbrev S256 : Shape := ⟨1, ![256]⟩
abbrev S640000x4 : Shape := ⟨2, ![640000, 4]⟩
abbrev S5000x128 : Shape := ⟨2, ![5000, 128]⟩
abbrev S5000x4 : Shape := ⟨2, ![5000, 4]⟩
abbrev S5000x1 : Shape := ⟨2, ![5000, 1]⟩
abbrev S5000x256 : Shape := ⟨2, ![5000, 256]⟩
abbrev S1x256 : Shape := ⟨2, ![1, 256]⟩
abbrev S1x4 : Shape := ⟨2, ![1, 4]⟩
abbrev S1x128 : Shape := ⟨2, ![1, 128]⟩

abbrev nBuf : Space → Nat
  | .hbm => 132
  | .vmem => 18
  | .smem => 0
  | _ => 0

abbrev hbmTy0_0 (i : Nat) : BufTy := match i % 128 with
  | 0 => ⟨S100000x128, .f32⟩
  | 1 => ⟨S2x640000, .i32⟩
  | 2 => ⟨S2x640000, .i32⟩
  | 3 => ⟨S128x128, .f32⟩
  | 4 => ⟨S128, .f32⟩
  | 5 => ⟨S128x4, .f32⟩
  | 6 => ⟨S4, .f32⟩
  | 7 => ⟨S128x128, .f32⟩
  | 8 => ⟨S128, .f32⟩
  | 9 => ⟨S128x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S1, .i32⟩
  | 28 => ⟨S_, .i32⟩
  | 29 => ⟨S640000x1, .i32⟩
  | 30 => ⟨S640000x1, .i1⟩
  | 31 => ⟨S1x1, .i32⟩
  | 32 => ⟨S640000x1, .i32⟩
  | 33 => ⟨S640000x1, .i1⟩
  | 34 => ⟨S640000x1, .i1⟩
  | 35 => ⟨S_, .i1⟩
  | 36 => ⟨S640000, .i1⟩
  | 37 => ⟨S640000x128, .f32⟩
  | 38 => ⟨S640000x128, .i1⟩
  | 39 => ⟨S_, .f32⟩
  | 40 => ⟨S640000x128, .f32⟩
  | 41 => ⟨S640000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S1, .i32⟩
  | 51 => ⟨S_, .i32⟩
  | 52 => ⟨S640000x1, .i32⟩
  | 53 => ⟨S640000x1, .i1⟩
  | 54 => ⟨S1x1, .i32⟩
  | 55 => ⟨S640000x1, .i32⟩
  | 56 => ⟨S640000x1, .i1⟩
  | 57 => ⟨S640000x1, .i1⟩
  | 58 => ⟨S_, .i1⟩
  | 59 => ⟨S640000, .i1⟩
  | 60 => ⟨S640000x128, .f32⟩
  | 61 => ⟨S640000x128, .i1⟩
  | 62 => ⟨S_, .f32⟩
  | 63 => ⟨S640000x128, .f32⟩
  | 64 => ⟨S640000x128, .f32⟩
  | 65 => ⟨S640000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S1, .i32⟩
  | 75 => ⟨S_, .i32⟩
  | 76 => ⟨S640000x1, .i32⟩
  | 77 => ⟨S640000x1, .i1⟩
  | 78 => ⟨S1x1, .i32⟩
  | 79 => ⟨S640000x1, .i32⟩
  | 80 => ⟨S640000x1, .i1⟩
  | 81 => ⟨S640000x1, .i1⟩
  | 82 => ⟨S_, .i1⟩
  | 83 => ⟨S640000, .i1⟩
  | 84 => ⟨S640000x128, .f32⟩
  | 85 => ⟨S640000x128, .i1⟩
  | 86 => ⟨S_, .f32⟩
  | 87 => ⟨S640000x128, .f32⟩
  | 88 => ⟨S640000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S1, .i32⟩
  | 98 => ⟨S_, .i32⟩
  | 99 => ⟨S640000x1, .i32⟩
  | 100 => ⟨S640000x1, .i1⟩
  | 101 => ⟨S1x1, .i32⟩
  | 102 => ⟨S640000x1, .i32⟩
  | 103 => ⟨S640000x1, .i1⟩
  | 104 => ⟨S640000x1, .i1⟩
  | 105 => ⟨S_, .i1⟩
  | 106 => ⟨S640000, .i1⟩
  | 107 => ⟨S640000x128, .f32⟩
  | 108 => ⟨S640000x128, .i1⟩
  | 109 => ⟨S_, .f32⟩
  | 110 => ⟨S640000x128, .f32⟩
  | 111 => ⟨S640000x128, .f32⟩
  | 112 => ⟨S640000x128, .f32⟩
  | 113 => ⟨S_, .f32⟩
  | 114 => ⟨S640000x128, .f32⟩
  | 115 => ⟨S640000x128, .f32⟩
  | 116 => ⟨S640000x128, .bf16⟩
  | 117 => ⟨S_, .f32⟩
  | 118 => ⟨S640000x128, .f32⟩
  | 119 => ⟨S640000x128, .f32⟩
  | 120 => ⟨S640000x128, .bf16⟩
  | 121 => ⟨S128x256, .f32⟩
  | 122 => ⟨S128x256, .bf16⟩
  | 123 => ⟨S256, .f32⟩
  | 124 => ⟨S128x4, .bf16⟩
  | 125 => ⟨S128x128, .bf16⟩
  | 126 => ⟨S128x1, .bf16⟩
  | 127 => ⟨S640000x4, .f32⟩
  | _ => ⟨S100000x128, .f32⟩

abbrev hbmTy0_1 (i : Nat) : BufTy := match i % 128 with
  | 0 => ⟨S640000x1, .f32⟩
  | 1 => ⟨S640000x1, .f32⟩
  | 2 => ⟨S640000, .f32⟩
  | 3 => ⟨S640000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x256, .bf16⟩
  | .local _ .vmem, ⟨5, _⟩ => ⟨S256, .f32⟩
  | .local _ .vmem, ⟨6, _⟩ => ⟨S128x4, .bf16⟩
  | .local _ .vmem, ⟨7, _⟩ => ⟨S4, .f32⟩
  | .local _ .vmem, ⟨8, _⟩ => ⟨S128x128, .bf16⟩
  | .local _ .vmem, ⟨9, _⟩ => ⟨S128, .f32⟩
  | .local _ .vmem, ⟨10, _⟩ => ⟨S128x1, .bf16⟩
  | .local _ .vmem, ⟨11, _⟩ => ⟨S1, .f32⟩
  | .local _ .vmem, ⟨12, _⟩ => ⟨S5000x4, .f32⟩
  | .local _ .vmem, ⟨13, _⟩ => ⟨S5000x4, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_v10 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v11 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v12 : Ref sig .tc := ⟨.hbm, 111, rfl⟩
abbrev main_v13 : Ref sig .tc := ⟨.hbm, 112, rfl⟩
abbrev main_cst : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_cst_0 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26_0 : Ref sig .tc := ⟨.hbm, 127, rfl⟩
abbrev main_v26_1 : Ref sig .tc := ⟨.hbm, 128, rfl⟩
abbrev main_v26_2 : Ref sig .tc := ⟨.hbm, 129, rfl⟩
abbrev main_v27 : Ref sig .tc := ⟨.hbm, 130, rfl⟩
abbrev main_v28 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  concatenates_S128x128_S128x128_S128x256_d1 : Shape.Concatenates [S128x128, S128x128] S128x256 1
  concatenates_S128_S128_S256_d0 : Shape.Concatenates [S128, S128] S256 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S640000x1_S640000 : S640000x1.ShapeCasts S640000
  gather_S100000x128_S640000x1_S640000x128_1_0_n_n_0_1_1128_wf : GatherDims.WF S100000x128 S640000x1 S640000x128 [1] [0] [] [0] [] 1 ![1, 128]
  dot_S5000x128_S128x256_S5000x256_1_0_0_1_n_n_wf : DotDims.WF S5000x128 S128x256 S5000x256 [1] [0] [0] [1] [] []
  dot_S5000x128_S128x4_S5000x4_1_0_0_1_n_n_wf : DotDims.WF S5000x128 S128x4 S5000x4 [1] [0] [0] [1] [] []
  dot_S5000x128_S128x1_S5000x1_1_0_0_1_n_n_wf : DotDims.WF S5000x128 S128x1 S5000x1 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .bf16 = 32 ∨ (Rect.block (s := S640000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .bf16 = 32 ∨ (Rect.block (s := S640000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4.size a ≤ S128x4.size a
  hwx0_4 : ∀ i : grid0.Coords, EltTy.bits .bf16 = 32 ∨ (Rect.block (s := S128x4) S128x4.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .bf16 = 32 ∨ (Rect.block (s := S128x1) S128x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x4.size a ≤ S640000x4.size a
  hwx0_10 : ∀ i : grid0.Coords, EltTy.bits .f32 = 32 ∨ (Rect.block (s := S640000x4) S5000x4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x1.size a ≤ S640000x1.size a
  hwx0_11 : ∀ i : grid0.Coords, EltTy.bits .f32 = 32 ∨ (Rect.block (s := S640000x1) S5000x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x1.size a ≤ S640000x1.size a
  hwx0_12 : ∀ i : grid0.Coords, EltTy.bits .f32 = 32 ∨ (Rect.block (s := S640000x1) S5000x1.size (cc0_transform_12 i) (hinb0_12 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S5000x4.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S5000x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v26_2) S5000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S640000x4 : Shape := ⟨2, ![640000, 4]⟩
abbrev S1x4 : Shape := ⟨2, ![1, 4]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S128x4, .f32⟩
  | .hbm, ⟨6, _⟩ => ⟨S4, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S1x640000, .i32⟩
  | .hbm, ⟨23, _⟩ => ⟨S640000, .i32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x128, .f32⟩
  | .hbm, ⟨34, _⟩ => ⟨S1x640000, .i32⟩
  | .hbm, ⟨35, _⟩ => ⟨S640000, .i32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S1x640000, .i32⟩
  | .hbm, ⟨46, _⟩ => ⟨S640000, .i32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S1x128, .f32⟩
  | .hbm, ⟨62, _⟩ => ⟨S640000x128, .f32⟩
  | .hbm, ⟨63, _⟩ => ⟨S640000x128, .f32⟩
  | .hbm, ⟨64, _⟩ => ⟨S_, .f32⟩
  | .hbm, ⟨65, _⟩ => ⟨S640000x128, .f32⟩
  | .hbm, ⟨66, _⟩ => ⟨S640000x128, .f32⟩
  | .hbm, ⟨67, _⟩ => ⟨S640000x4, .f32⟩
  | .hbm, ⟨68, _⟩ => ⟨S1x4, .f32⟩
  | .hbm, ⟨69, _⟩ => ⟨S640000x4, .f32⟩
  | .hbm, ⟨70, _⟩ => ⟨S640000x4, .f32⟩
  | .hbm, ⟨71, _⟩ => ⟨S640000x4, .f32⟩
  | .hbm, ⟨72, _⟩ => ⟨S640000x4, .f32⟩
  | .hbm, ⟨73, _⟩ => ⟨S_, .f32⟩
  | .hbm, ⟨74, _⟩ => ⟨S640000x4, .f32⟩
  | .hbm, ⟨75, _⟩ => ⟨S640000x4, .f32⟩
  | .hbm, ⟨76, _⟩ => ⟨S_, .f32⟩
  | .hbm, ⟨77, _⟩ => ⟨S640000x4, .f32⟩
  | .hbm, ⟨78, _⟩ => ⟨S640000x4, .f32⟩
  | .hbm, ⟨79, _⟩ => ⟨S_, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S1x128, .f32⟩
  | .hbm, ⟨84, _⟩ => ⟨S640000x128, .f32⟩
  | .hbm, ⟨85, _⟩ => ⟨S640000x128, .f32⟩
  | .hbm, ⟨86, _⟩ => ⟨S_, .f32⟩
  | .hbm, ⟨87, _⟩ => ⟨S640000x128, .f32⟩
  | .hbm, ⟨88, _⟩ => ⟨S640000x128, .f32⟩
  | .hbm, ⟨89, _⟩ => ⟨S640000x1, .f32⟩
  | .hbm, ⟨90, _⟩ => ⟨S1x1, .f32⟩
  | .hbm, ⟨91, _⟩ => ⟨S640000x1, .f32⟩
  | .hbm, ⟨92, _⟩ => ⟨S640000x1, .f32⟩
  | .hbm, ⟨93, _⟩ => ⟨S640000, .f32⟩
  | .hbm, ⟨94, _⟩ => ⟨S640000, .f32⟩
  | .hbm, ⟨95, _⟩ => ⟨S640000, .f32⟩
  | .hbm, ⟨96, _⟩ => ⟨S_, .f32⟩
  | .hbm, ⟨97, _⟩ => ⟨S640000, .f32⟩
  | .hbm, ⟨98, _⟩ => ⟨S640000, .f32⟩
  | .hbm, ⟨99, _⟩ => ⟨S_, .f32⟩
  | .hbm, ⟨100, _⟩ => ⟨S640000, .f32⟩
  | .hbm, ⟨101, _⟩ => ⟨S640000, .f32⟩
  | .hbm, ⟨102, _⟩ => ⟨S_, .f32⟩
  | .hbm, ⟨103, _⟩ => ⟨S640000x128, .f32⟩
  | .hbm, ⟨104, _⟩ => ⟨S640000x128, .f32⟩
  | .hbm, ⟨105, _⟩ => ⟨S640000x128, .f32⟩
  | .hbm, ⟨106, _⟩ => ⟨S1x128, .f32⟩
  | .hbm, ⟨107, _⟩ => ⟨S640000x128, .f32⟩
  | .hbm, ⟨108, _⟩ => ⟨S640000x128, .f32⟩
  | .hbm, ⟨109, _⟩ => ⟨S_, .f32⟩
  | .hbm, ⟨110, _⟩ => ⟨S640000x128, .f32⟩
  | .hbm, ⟨111, _⟩ => ⟨S640000x128, .f32⟩
  | .hbm, ⟨112, _⟩ => ⟨S640000x1, .f32⟩
  | .hbm, ⟨113, _⟩ => ⟨S1x1, .f32⟩
  | .hbm, ⟨114, _⟩ => ⟨S640000x1, .f32⟩
  | .hbm, ⟨115, _⟩ => ⟨S640000x1, .f32⟩
  | .hbm, ⟨116, _⟩ => ⟨S640000, .f32⟩
  | .hbm, ⟨117, _⟩ => ⟨S640000, .f32⟩
  | .hbm, ⟨118, _⟩ => ⟨S640000, .f32⟩
  | .hbm, ⟨119, _⟩ => ⟨S_, .f32⟩
  | .hbm, ⟨120, _⟩ => ⟨S640000, .f32⟩
  | .hbm, ⟨121, _⟩ => ⟨S640000, .f32⟩
  | .hbm, ⟨122, _⟩ => ⟨S_, .f32⟩
  | .hbm, ⟨123, _⟩ => ⟨S640000, .f32⟩
  | .hbm, ⟨124, _⟩ => ⟨S640000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_call2_cst : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call3_cst : Ref sig .tc := ⟨.hbm, 86, rfl⟩
abbrev main_call3_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_call4_cst : Ref sig .tc := ⟨.hbm, 102, rfl⟩
abbrev main_call4_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call5_cst : Ref sig .tc := ⟨.hbm, 109, rfl⟩
abbrev main_call5_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_10 : Ref sig .tc := ⟨.hbm, 119, rfl⟩
abbrev main_v84 : Ref sig .tc := ⟨.hbm, 120, rfl⟩
abbrev main_v85 : Ref sig .tc := ⟨.hbm, 121, rfl⟩
abbrev main_cst_11 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  bcast_S_S640000x128 : S_.BroadcastsInDim S640000x128 (![] : Fin 0 → Fin S640000x128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S4_S1x4_1 : S4.BroadcastsInDim S1x4 (![1] : Fin 1 → Fin S1x4.rank)
  bcast_S1x4_S640000x4_0_1 : S1x4.BroadcastsInDim S640000x4 (![0, 1] : Fin 2 → Fin S640000x4.rank)
  bcast_S_S640000x4 : S_.BroadcastsInDim S640000x4 (![] : Fin 0 → Fin S640000x4.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S640000 : S640000x1.ShapeCasts S640000
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  dot_S640000x128_S128x4_S640000x4_1_0_0_1_n_n_wf : DotDims.WF S640000x128 S128x4 S640000x4 [1] [0] [0] [1] [] []
  dot_S640000x128_S128x1_S640000x1_1_0_0_1_n_n_wf : DotDims.WF S640000x128 S128x1 S640000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x4_S640000x4_1_0_0_1_n_n : DotDims S640000x128 S128x4 S640000x4 where
  lhsContracting := [1]
  rhsContracting := [0]
  lhsNonContracting := [0]
  rhsNonContracting := [1]
  lhsBatch := []
  rhsBatch := []
  wf := dot_S640000x128_S128x4_S640000x4_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.Arrays.lean ====
/-
  Names for the arrays the idealized kernel's one region works on, at their literal shapes, and the kernel's run with its
  three results named.

  When the region is entered the host has already written its ten operands: the two [640000, 128] edge-feature arrays
  (positive and negative edges), the [128, 256] array holding W1 and We1 side by side, the [256] array holding b1 and be1
  end to end, and W2, b2, We1, be1, We2, be2. The region writes three arrays: [640000, 4] attribute predictions and two
  [640000, 1] columns of edge scores; after the region the host reshapes each column to a vector.
-/
import proofs.«420310_j23433341567203_3_alg».proof.Proof.Gen.KernelIdeal.Frame
import Idealize.ShloMosaic.PureOps.Ideal

noncomputable section

namespace Cert.EdgeDecoder.Arrays

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The positive edges' feature rows as the region finds them. -/
abbrev posFeat (c : Dev nD) : Vec Ideal S640000x128 .bf16 := V m c main_v16
/-- The negative edges' feature rows as the region finds them. -/
abbrev negFeat (c : Dev nD) : Vec Ideal S640000x128 .bf16 := V m c main_v19
/-- W1 and We1 side by side. -/
abbrev wcat (c : Dev nD) : Vec Ideal S128x256 .bf16 := V m c main_v21
/-- b1 and be1 end to end. -/
abbrev bcat (c : Dev nD) : Vec Ideal S256 .f32 := V m c main_v22
abbrev w2 (c : Dev nD) : Vec Ideal S128x4 .bf16 := V m c main_v23
abbrev b2 (c : Dev nD) : Vec Ideal S4 .f32 := V m c main_arg6
abbrev we1 (c : Dev nD) : Vec Ideal S128x128 .bf16 := V m c main_v24
abbrev be1 (c : Dev nD) : Vec Ideal S128 .f32 := V m c main_arg8
abbrev we2 (c : Dev nD) : Vec Ideal S128x1 .bf16 := V m c main_v25
abbrev be2 (c : Dev nD) : Vec Ideal S1 .f32 := V m c main_arg10

/-- The attribute predictions after the region. -/
abbrev attrOut (c : Dev nD) : Vec Ideal S640000x4 .f32 := (dats m 0 c).arrAt 10 cfg0.N
/-- The positive edges' scores after the region, as a column. -/
abbrev posOut (c : Dev nD) : Vec Ideal S640000x1 .f32 := (dats m 0 c).arrAt 11 cfg0.N
/-- The negative edges' scores after the region, as a column. -/
abbrev negOut (c : Dev nD) : Vec Ideal S640000x1 .f32 := (dats m 0 c).arrAt 12 cfg0.N

/-- What the host's two reshapes after the region leave in the second and third results. -/
abbrev posRes (c : Dev nD) : Vec Ideal S640000 .f32 := Pipeline.afterTail₀ cfgs (dats m) 0 (V0 m) [hostOps1] c main_v27
abbrev negRes (c : Dev nD) : Vec Ideal S640000 .f32 := Pipeline.afterTail₀ cfgs (dats m) 0 (V0 m) [hostOps1] c main_v28

/-- The kernel's run: every weakly fair execution terminates with the first result at the region's first output array, the
    other two at what the host's reshapes make of the two columns, and the arguments as launched. -/
theorem kernel_run : θ_run defs (onTc (τ := τ) (main (F := Ideal))) ⟨m, fun _ => 0, ρ⟩ (fun r => ∀ c : Dev nD,
      r.2.mem ((c.tc : Thread nD τ).loc main_v26_0) = attrOut m c
      ∧ r.2.mem ((c.tc : Thread nD τ).loc main_v27) = posRes m c
      ∧ r.2.mem ((c.tc : Thread nD τ).loc main_v28) = negRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 10,
      (h c).2 main_v27 (Pipeline.mem_restRefs_of main_v27 (by decide) (by decide)),
      (h c).2 main_v28 (Pipeline.mem_restRefs_of main_v28 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c)),
      ((h c).1 7).trans (((dats m 0 c).arrAt_in 7 rfl _).trans ((A_eq m c 7).trans (V_main_arg8 m c))),
      (((h c).2 main_arg9 (Pipeline.mem_restRefs_of main_arg9 (by decide) (by decide))).trans (W_main_arg9 m (dats m) c)),
      ((h c).1 9).trans (((dats m 0 c).arrAt_in 9 rfl _).trans ((A_eq m c 9).trans (V_main_arg10 m c)))⟩) (run_main m ρ)

end Cert.EdgeDecoder.Arrays

end
-- ==== Proof.Spec.lean ====
/-
  The edge decoder, one edge at a time, on the extended reals.

  An edge's feature row e (128 numbers: the rectified elementwise product of its two endpoint embeddings) goes through a
  hidden layer of 128 rectified affine units, hidden e W b q = max (∑ k, e k · W k q + b q) 0, and then through an output head:
  head e W b U d j = σ (∑ q, hidden e W b q · U q j + d j), with σ z = 1 / (1 + exp (−z)). The attribute decoder has four
  outputs per edge (W1, b1, W2, b2); the edge-existence decoder has one (We1, be1, We2, be2), and is applied to the positive
  and to the negative edges. Weights and biases enter as functions of their coordinates, so that a program holding two
  weight matrices side by side in one 128 × 256 array, and a program holding them apart, instantiate the same definition.
-/
import Idealize.ShloMosaic.PureOps.Ideal

noncomputable section

namespace Cert.EdgeDecoder

open Idealize.ShloMosaic
open scoped BigOperators

/-- One hidden unit: the rectified affine form of an edge's feature row. -/
def hidden (e : Fin 128 → EReal) (W : Fin 128 → Fin 128 → EReal) (b : Fin 128 → EReal) (q : Fin 128) : EReal :=
  max (∑ k : Fin 128, e k * W k q + b q) 0

/-- One output of a decoder head: the logistic function of an affine form of the hidden units. -/
def head {n : Nat} (e : Fin 128 → EReal) (W : Fin 128 → Fin 128 → EReal) (b : Fin 128 → EReal)
    (U : Fin 128 → Fin n → EReal) (d : Fin n → EReal) (j : Fin n) : EReal :=
  Ideal.logistic (∑ q : Fin 128, hidden e W b q * U q j + d j)

/-- Column q of the left half of a 256-wide row. -/
abbrev lo (q : Fin 128) : Fin 256 := ⟨q.val, by have := q.isLt; omega⟩

/-- Column q of the right half of a 256-wide row. -/
abbrev hi (q : Fin 128) : Fin 256 := ⟨128 + q.val, by have := q.isLt; omega⟩

end Cert.EdgeDecoder

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Payload.lean ====
/-
  What the kernel body stores, read at one element: each of its three stores is a decoder head applied to one row of an
  input block. The body multiplies a block of 5000 feature rows by the side-by-side weight array once; the attribute head
  reads the left half of the product's columns and the positive-edge head the right half.
-/
import proofs.«420310_j23433341567203_3_alg».proof.Proof.Gen.KernelIdeal.Skeleton
import proofs.«420310_j23433341567203_3_alg».proof.Proof.Spec
import proofs.«420310_j23433341567203_3_alg».proof.Proof.LibMatmul
import Idealize.ShloMosaic.Lib.Pipeline.Value
import Idealize.ShloMosaic.Lib.ValueLayout

noncomputable section

namespace Cert.EdgeDecoder.Payload

open Cert.KernelIdeal Cert.KernelIdeal.Gen Cert.EdgeDecoder
open Idealize.ShloMosaic Idealize.ShloMosaic.ValueIdx
open scoped BigOperators

/-- The logistic of an array, read at an index, is the logistic of the element there. -/
private theorem logistic_at {s : Shape} {φ : FTy} (x : FVec Ideal s φ) (i : s.Idx) :
    logistic x i = Ideal.logistic (x i) := rfl

/-- A product of an M×K by a K×N array into the zero constant, whose dimension numbers are the plain ones
    (contract the left operand's second axis with the right operand's first), read at (p, q). -/
private theorem matmul_at {M K N : Nat} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂)
    (p : Fin M) (q : Fin N) :
    matmul d none l r (constant (F := Ideal) ⟨2, ![M, N]⟩ .f32 0x00000000#32) (ix2 p q)
      = ∑ k : Fin K, l (ix2 p k) * r (ix2 k q) := by
  subst hd
  exact Cert.Matmul.matmul_plain_apply none l r p q

/-- A vector of length b, given a leading unit axis and then repeated over a rows, reads at (p, q) its entry q. -/
private theorem bias_at {a b : Nat} {α : Type} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (q : Fin b) :
    broadcastTo ⟨2, ![a, b]⟩ (shapeCast ⟨2, ![1, b]⟩ x h) h' (ix2 p q) = x (ix1 q) :=
  (broadcastTo_1b_ab_apply _ h' p q).trans (shapeCast_a_1a_apply x h 0 q)

/-- The left half of a 5000×256 array's columns, read at (p, q), is the array at column q. -/
private theorem left_at {α : Type} (X : (⟨2, ![5000, 256]⟩ : Shape).Idx → α)
    (h : (⟨2, ![5000, 256]⟩ : Shape).Slices ![0, 0] ⟨2, ![5000, 128]⟩) (p : Fin 5000) (q : Fin 128) :
    extractStridedSlice ⟨2, ![5000, 128]⟩ ![0, 0] X h (ix2 p q) = X (ix2 p (lo q)) :=
  slice2_axis1_apply 0 X h p q (lo q) (Nat.zero_add _).symm

/-- The right half of a 5000×256 array's columns, read at (p, q), is the array at column 128 + q. -/
private theorem right_at {α : Type} (X : (⟨2, ![5000, 256]⟩ : Shape).Idx → α)
    (h : (⟨2, ![5000, 256]⟩ : Shape).Slices ![0, 128] ⟨2, ![5000, 128]⟩) (p : Fin 5000) (q : Fin 128) :
    extractStridedSlice ⟨2, ![5000, 128]⟩ ![0, 128] X h (ix2 p q) = X (ix2 p (hi q)) :=
  slice2_axis1_apply 128 X h p q (hi q) rfl

/-- The attribute store at row p, output j. -/
theorem attr_block (x0 : Vec Ideal S5000x128 .bf16) (x2 : Vec Ideal S128x256 .bf16) (x3 : Vec Ideal S256 .f32)
    (x4 : Vec Ideal S128x4 .bf16) (x5 : Vec Ideal S4 .f32) (p : Fin 5000) (j : Fin 4) :
    k0_pay3 (F := Ideal) x0 x2 x3 x4 x5 (ix2 p j)
      = head (fun k => x0 (ix2 p k)) (fun k q => x2 (ix2 k (lo q))) (fun q => x3 (ix1 (lo q)))
          (fun q j => x4 (ix2 q j)) (fun j => x5 (ix1 j)) j := by
  have e1 : dot_S5000x128_S128x256_S5000x256_1_0_0_1_n_n = DotDims.plain 5000 128 256 := rfl
  have e2 : dot_S5000x128_S128x4_S5000x4_1_0_0_1_n_n = DotDims.plain 5000 128 4 := rfl
  unfold k0_pay3 k0_pay2
  simp only [shapeCast_self]
  rw [logistic_at, addf_apply, matmul_at _ e2, bias_at]
  simp only [truncf_apply, maximumf_apply, addf_apply, broadcast_apply, left_at, matmul_at _ e1, bias_at]
  rw [Ideal.ofBits_def, Ideal.ofBits_zero_f32]
  rfl

/-- The positive-edge store at row p. -/
theorem pos_block (x0 : Vec Ideal S5000x128 .bf16) (x2 : Vec Ideal S128x256 .bf16) (x3 : Vec Ideal S256 .f32)
    (x8 : Vec Ideal S128x1 .bf16) (x9 : Vec Ideal S1 .f32) (p : Fin 5000) (j : Fin 1) :
    k0_pay4 (F := Ideal) x0 x2 x3 x8 x9 (ix2 p j)
      = head (fun k => x0 (ix2 p k)) (fun k q => x2 (ix2 k (hi q))) (fun q => x3 (ix1 (hi q)))
          (fun q j => x8 (ix2 q j)) (fun j => x9 (ix1 j)) j := by
  have e1 : dot_S5000x128_S128x256_S5000x256_1_0_0_1_n_n = DotDims.plain 5000 128 256 := rfl
  have e2 : dot_S5000x128_S128x1_S5000x1_1_0_0_1_n_n = DotDims.plain 5000 128 1 := rfl
  unfold k0_pay4 k0_pay2
  simp only [shapeCast_self]
  rw [logistic_at, addf_apply, matmul_at _ e2, bias_at]
  simp only [truncf_apply, maximumf_apply, addf_apply, broadcast_apply, right_at, matmul_at _ e1, bias_at]
  rw [Ideal.ofBits_def, Ideal.ofBits_zero_f32]
  rfl

/-- The negative-edge store at row p. -/
theorem neg_block (x1 : Vec Ideal S5000x128 .bf16) (x6 : Vec Ideal S128x128 .bf16) (x7 : Vec Ideal S128 .f32)
    (x8 : Vec Ideal S128x1 .bf16) (x9 : Vec Ideal S1 .f32) (p : Fin 5000) (j : Fin 1) :
    k0_pay1 (F := Ideal) x1 x6 x7 x8 x9 (ix2 p j)
      = head (fun k => x1 (ix2 p k)) (fun k q => x6 (ix2 k q)) (fun q => x7 (ix1 q))
          (fun q j => x8 (ix2 q j)) (fun j => x9 (ix1 j)) j := by
  have e1 : dot_S5000x128_S128x128_S5000x128_1_0_0_1_n_n = DotDims.plain 5000 128 128 := rfl
  have e2 : dot_S5000x128_S128x1_S5000x1_1_0_0_1_n_n = DotDims.plain 5000 128 1 := rfl
  unfold k0_pay1
  simp only [shapeCast_self]
  rw [logistic_at, addf_apply, matmul_at _ e2, bias_at]
  simp only [truncf_apply, maximumf_apply, addf_apply, broadcast_apply, matmul_at _ e1, bias_at]
  rw [Ideal.ofBits_def, Ideal.ofBits_zero_f32]
  rfl

end Cert.EdgeDecoder.Payload

end
-- ==== Proof.Blocks.lean ====
/-
  From blocks to arrays: grid point t of 128 handles edges 5000·t … 5000·t + 4999, and the weight operands are whole at every
  point, so each output array is, edge by edge, the decoder head of that edge's feature row.

  The block index maps are decided once over the 128 points. A block's element is then located in its array (for an
  arbitrary array of the window's type), the input blocks at a point are read off the region-entry arrays, and for each of
  the three outputs: what point t writes back is block t of ONE whole-array function (the head of the edge's row); every edge
  r is covered by point r / 5000; hence the array after the region is that function.
-/
import proofs.«420310_j23433341567203_3_alg».proof.Proof.Arrays
import proofs.«420310_j23433341567203_3_alg».proof.Proof.Payload

noncomputable section

namespace Cert.EdgeDecoder.Blocks

open Cert.KernelIdeal Cert.KernelIdeal.Gen Cert.EdgeDecoder Cert.EdgeDecoder.Arrays
open Idealize.ShloMosaic Idealize.ShloMosaic.TcCoe Idealize.SL.Sem Idealize.ShloMosaic.ValueIdx
open scoped BigOperators

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The block index maps, decided over the 128 grid points

The two feature windows and the three output windows sit at row block t; every weight window is whole (block zero). -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 1) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 1) = 0 :=
  (by decide +kernel : ∀ t : Fin grid0.N, _)
theorem idx_w10 : ∀ t : Fin cfg0.N, win0_10.index t (0 : Fin 2) = t.val ∧ win0_10.index t (1 : Fin 2) = 0 :=
  (by decide +kernel : ∀ t : Fin grid0.N, _)
theorem idx_w11 : ∀ t : Fin cfg0.N, win0_11.index t (0 : Fin 2) = t.val ∧ win0_11.index t (1 : Fin 2) = 0 :=
  (by decide +kernel : ∀ t : Fin grid0.N, _)
theorem idx_w12 : ∀ t : Fin cfg0.N, win0_12.index t (0 : Fin 2) = t.val ∧ win0_12.index t (1 : Fin 2) = 0 :=
  (by decide +kernel : ∀ t : Fin grid0.N, _)

/-- The grid has 128 points. -/
theorem t_lt (t : Fin cfg0.N) : t.val < 128 := Nat.lt_of_lt_of_eq t.isLt N_0

/-- Two functions of a rank-2 index that agree at every pair of coordinates are equal. -/
theorem ext_ix2 {n0 n1 : Nat} {α : Type} {f g : (⟨2, ![n0, n1]⟩ : Shape).Idx → α}
    (h : ∀ (p : Fin n0) (j : Fin n1), f (ix2 p j) = g (ix2 p j)) : f = g :=
  funext fun y => by rw [eq_ix2 y]; exact h _ _

/-! ## Where a block's element sits in its array

Each is stated for an arbitrary array of the window's type: a row block's element (p, ·) at point t is the array's element
(5000·t + p, ·); a whole window's element is the array's at the same index. -/

/-- Window 0 (positive-edge features): row p of block t is row 5000·t + p. -/
theorem read_w0 (X : Vec Ideal S640000x128 .bf16) (t : Fin cfg0.N) (p : Fin 5000) (k : Fin 128) :
    ((cfg0.win 0).blk t).view.read (Elt Ideal) X (ix2 p k)
      = X (ix2 (⟨5000 * t.val + p.val, by have := t_lt t; omega⟩ : Fin 640000) k) := by
  obtain ⟨e0, e1⟩ := idx_w0 t
  rw [View.read_apply]
  have he : ((cfg0.win 0).blk t).view.emb (ix2 p k)
      = (ix2 (⟨5000 * t.val + p.val, by have := t_lt t; omega⟩ : Fin 640000) k : S640000x128.Idx) := by
    funext a
    apply Fin.ext
    match a with
    | ⟨0, _⟩ => show win0_0.index t (0 : Fin 2) * 5000 + 1 * p.val = 5000 * t.val + p.val; rw [e0]; omega
    | ⟨1, _⟩ => show win0_0.index t (1 : Fin 2) * 128 + 1 * k.val = k.val; rw [e1]; omega
  rw [he]
  rfl

/-- Window 1 (negative-edge features): row p of block t is row 5000·t + p. -/
theorem read_w1 (X : Vec Ideal S640000x128 .bf16) (t : Fin cfg0.N) (p : Fin 5000) (k : Fin 128) :
    ((cfg0.win 1).blk t).view.read (Elt Ideal) X (ix2 p k)
      = X (ix2 (⟨5000 * t.val + p.val, by have := t_lt t; omega⟩ : Fin 640000) k) := by
  obtain ⟨e0, e1⟩ := idx_w1 t
  rw [View.read_apply]
  have he : ((cfg0.win 1).blk t).view.emb (ix2 p k)
      = (ix2 (⟨5000 * t.val + p.val, by have := t_lt t; omega⟩ : Fin 640000) k : S640000x128.Idx) := by
    funext a
    apply Fin.ext
    match a with
    | ⟨0, _⟩ => show win0_1.index t (0 : Fin 2) * 5000 + 1 * p.val = 5000 * t.val + p.val; rw [e0]; omega
    | ⟨1, _⟩ => show win0_1.index t (1 : Fin 2) * 128 + 1 * k.val = k.val; rw [e1]; omega
  rw [he]
  rfl

/-- Window 2 is its whole array at every point. -/
theorem read_w2 (X : Vec Ideal S128x256 .bf16) (t : Fin cfg0.N) (k : Fin 128) (q : Fin 256) :
    ((cfg0.win 2).blk t).view.read (Elt Ideal) X (ix2 k q) = X (ix2 k q) := by
  obtain ⟨e0, e1⟩ := idx_w2 t
  rw [View.read_apply]
  have he : ((cfg0.win 2).blk t).view.emb (ix2 k q) = (ix2 k q : S128x256.Idx) := by
    funext a
    apply Fin.ext
    match a with
    | ⟨0, _⟩ => show win0_2.index t (0 : Fin 2) * 128 + 1 * k.val = k.val; rw [e0]; omega
    | ⟨1, _⟩ => show win0_2.index t (1 : Fin 2) * 256 + 1 * q.val = q.val; rw [e1]; omega
  rw [he]
  rfl

/-- Window 3 is its whole array at every point. -/
theorem read_w3 (X : Vec Ideal S256 .f32) (t : Fin cfg0.N) (q : Fin 256) :
    ((cfg0.win 3).blk t).view.read (Elt Ideal) X (ix1 q) = X (ix1 q) := by
  have e0 := idx_w3 t
  rw [View.read_apply]
  have he : ((cfg0.win 3).blk t).view.emb (ix1 q) = (ix1 q : S256.Idx) := by
    funext a
    apply Fin.ext
    match a with
    | ⟨0, _⟩ => show win0_3.index t (0 : Fin 1) * 256 + 1 * q.val = q.val; rw [e0]; omega
  rw [he]
  rfl

/-- Window 4 is its whole array at every point. -/
theorem read_w4 (X : Vec Ideal S128x4 .bf16) (t : Fin cfg0.N) (q : Fin 128) (j : Fin 4) :
    ((cfg0.win 4).blk t).view.read (Elt Ideal) X (ix2 q j) = X (ix2 q j) := by
  obtain ⟨e0, e1⟩ := idx_w4 t
  rw [View.read_apply]
  have he : ((cfg0.win 4).blk t).view.emb (ix2 q j) = (ix2 q j : S128x4.Idx) := by
    funext a
    apply Fin.ext
    match a with
    | ⟨0, _⟩ => show win0_4.index t (0 : Fin 2) * 128 + 1 * q.val = q.val; rw [e0]; omega
    | ⟨1, _⟩ => show win0_4.index t (1 : Fin 2) * 4 + 1 * j.val = j.val; rw [e1]; omega
  rw [he]
  rfl

/-- Window 5 is its whole array at every point. -/
theorem read_w5 (X : Vec Ideal S4 .f32) (t : Fin cfg0.N) (j : Fin 4) :
    ((cfg0.win 5).blk t).view.read (Elt Ideal) X (ix1 j) = X (ix1 j) := by
  have e0 := idx_w5 t
  rw [View.read_apply]
  have he : ((cfg0.win 5).blk t).view.emb (ix1 j) = (ix1 j : S4.Idx) := by
    funext a
    apply Fin.ext
    match a with
    | ⟨0, _⟩ => show win0_5.index t (0 : Fin 1) * 4 + 1 * j.val = j.val; rw [e0]; omega
  rw [he]
  rfl

/-- Window 6 is its whole array at every point. -/
theorem read_w6 (X : Vec Ideal S128x128 .bf16) (t : Fin cfg0.N) (k : Fin 128) (q : Fin 128) :
    ((cfg0.win 6).blk t).view.read (Elt Ideal) X (ix2 k q) = X (ix2 k q) := by
  obtain ⟨e0, e1⟩ := idx_w6 t
  rw [View.read_apply]
  have he : ((cfg0.win 6).blk t).view.emb (ix2 k q) = (ix2 k q : S128x128.Idx) := by
    funext a
    apply Fin.ext
    match a with
    | ⟨0, _⟩ => show win0_6.index t (0 : Fin 2) * 128 + 1 * k.val = k.val; rw [e0]; omega
    | ⟨1, _⟩ => show win0_6.index t (1 : Fin 2) * 128 + 1 * q.val = q.val; rw [e1]; omega
  rw [he]
  rfl

/-- Window 7 is its whole array at every point. -/
theorem read_w7 (X : Vec Ideal S128 .f32) (t : Fin cfg0.N) (q : Fin 128) :
    ((cfg0.win 7).blk t).view.read (Elt Ideal) X (ix1 q) = X (ix1 q) := by
  have e0 := idx_w7 t
  rw [View.read_apply]
  have he : ((cfg0.win 7).blk t).view.emb (ix1 q) = (ix1 q : S128.Idx) := by
    funext a
    apply Fin.ext
    match a with
    | ⟨0, _⟩ => show win0_7.index t (0 : Fin 1) * 128 + 1 * q.val = q.val; rw [e0]; omega
  rw [he]
  rfl

/-- Window 8 is its whole array at every point. -/
theorem read_w8 (X : Vec Ideal S128x1 .bf16) (t : Fin cfg0.N) (q : Fin 128) (j : Fin 1) :
    ((cfg0.win 8).blk t).view.read (Elt Ideal) X (ix2 q j) = X (ix2 q j) := by
  obtain ⟨e0, e1⟩ := idx_w8 t
  rw [View.read_apply]
  have he : ((cfg0.win 8).blk t).view.emb (ix2 q j) = (ix2 q j : S128x1.Idx) := by
    funext a
    apply Fin.ext
    match a with
    | ⟨0, _⟩ => show win0_8.index t (0 : Fin 2) * 128 + 1 * q.val = q.val; rw [e0]; omega
    | ⟨1, _⟩ => show win0_8.index t (1 : Fin 2) * 1 + 1 * j.val = j.val; rw [e1]; omega
  rw [he]
  rfl

/-- Window 9 is its whole array at every point. -/
theorem read_w9 (X : Vec Ideal S1 .f32) (t : Fin cfg0.N) (j : Fin 1) :
    ((cfg0.win 9).blk t).view.read (Elt Ideal) X (ix1 j) = X (ix1 j) := by
  have e0 := idx_w9 t
  rw [View.read_apply]
  have he : ((cfg0.win 9).blk t).view.emb (ix1 j) = (ix1 j : S1.Idx) := by
    funext a
    apply Fin.ext
    match a with
    | ⟨0, _⟩ => show win0_9.index t (0 : Fin 1) * 1 + 1 * j.val = j.val; rw [e0]; omega
  rw [he]
  rfl

/-- Window 10 (attribute predictions): row p of block t is row 5000·t + p. -/
theorem read_w10 (X : Vec Ideal S640000x4 .f32) (t : Fin cfg0.N) (p : Fin 5000) (j : Fin 4) :
    ((cfg0.win 10).blk t).view.read (Elt Ideal) X (ix2 p j)
      = X (ix2 (⟨5000 * t.val + p.val, by have := t_lt t; omega⟩ : Fin 640000) j) := by
  obtain ⟨e0, e1⟩ := idx_w10 t
  rw [View.read_apply]
  have he : ((cfg0.win 10).blk t).view.emb (ix2 p j)
      = (ix2 (⟨5000 * t.val + p.val, by have := t_lt t; omega⟩ : Fin 640000) j : S640000x4.Idx) := by
    funext a
    apply Fin.ext
    match a with
    | ⟨0, _⟩ => show win0_10.index t (0 : Fin 2) * 5000 + 1 * p.val = 5000 * t.val + p.val; rw [e0]; omega
    | ⟨1, _⟩ => show win0_10.index t (1 : Fin 2) * 4 + 1 * j.val = j.val; rw [e1]; omega
  rw [he]
  rfl

/-- Window 11 (positive-edge scores): row p of block t is row 5000·t + p. -/
theorem read_w11 (X : Vec Ideal S640000x1 .f32) (t : Fin cfg0.N) (p : Fin 5000) (j : Fin 1) :
    ((cfg0.win 11).blk t).view.read (Elt Ideal) X (ix2 p j)
      = X (ix2 (⟨5000 * t.val + p.val, by have := t_lt t; omega⟩ : Fin 640000) j) := by
  obtain ⟨e0, e1⟩ := idx_w11 t
  rw [View.read_apply]
  have he : ((cfg0.win 11).blk t).view.emb (ix2 p j)
      = (ix2 (⟨5000 * t.val + p.val, by have := t_lt t; omega⟩ : Fin 640000) j : S640000x1.Idx) := by
    funext a
    apply Fin.ext
    match a with
    | ⟨0, _⟩ => show win0_11.index t (0 : Fin 2) * 5000 + 1 * p.val = 5000 * t.val + p.val; rw [e0]; omega
    | ⟨1, _⟩ => show win0_11.index t (1 : Fin 2) * 1 + 1 * j.val = j.val; rw [e1]; omega
  rw [he]
  rfl

/-- Window 12 (negative-edge scores): row p of block t is row 5000·t + p. -/
theorem read_w12 (X : Vec Ideal S640000x1 .f32) (t : Fin cfg0.N) (p : Fin 5000) (j : Fin 1) :
    ((cfg0.win 12).blk t).view.read (Elt Ideal) X (ix2 p j)
      = X (ix2 (⟨5000 * t.val + p.val, by have := t_lt t; omega⟩ : Fin 640000) j) := by
  obtain ⟨e0, e1⟩ := idx_w12 t
  rw [View.read_apply]
  have he : ((cfg0.win 12).blk t).view.emb (ix2 p j)
      = (ix2 (⟨5000 * t.val + p.val, by have := t_lt t; omega⟩ : Fin 640000) j : S640000x1.Idx) := by
    funext a
    apply Fin.ext
    match a with
    | ⟨0, _⟩ => show win0_12.index t (0 : Fin 2) * 5000 + 1 * p.val = 5000 * t.val + p.val; rw [e0]; omega
    | ⟨1, _⟩ => show win0_12.index t (1 : Fin 2) * 1 + 1 * j.val = j.val; rw [e1]; omega
  rw [he]
  rfl

/-! ## The input blocks at a point, read off the region-entry arrays -/

theorem posFeat_blk (c : Dev nD) (t : Fin cfg0.N) (p : Fin 5000) (k : Fin 128) :
    (iblk m c 0 t : Vec Ideal S5000x128 .bf16) (ix2 p k)
      = posFeat m c (ix2 (⟨5000 * t.val + p.val, by have := t_lt t; omega⟩ : Fin 640000) k) :=
  read_w0 (posFeat m c) t p k
theorem negFeat_blk (c : Dev nD) (t : Fin cfg0.N) (p : Fin 5000) (k : Fin 128) :
    (iblk m c 1 t : Vec Ideal S5000x128 .bf16) (ix2 p k)
      = negFeat m c (ix2 (⟨5000 * t.val + p.val, by have := t_lt t; omega⟩ : Fin 640000) k) :=
  read_w1 (negFeat m c) t p k
theorem wcat_blk (c : Dev nD) (t : Fin cfg0.N) (k : Fin 128) (q : Fin 256) :
    (iblk m c 2 t : Vec Ideal S128x256 .bf16) (ix2 k q) = wcat m c (ix2 k q) :=
  read_w2 (wcat m c) t k q
theorem bcat_blk (c : Dev nD) (t : Fin cfg0.N) (q : Fin 256) :
    (iblk m c 3 t : Vec Ideal S256 .f32) (ix1 q) = bcat m c (ix1 q) :=
  read_w3 (bcat m c) t q
theorem w2_blk (c : Dev nD) (t : Fin cfg0.N) (q : Fin 128) (j : Fin 4) :
    (iblk m c 4 t : Vec Ideal S128x4 .bf16) (ix2 q j) = w2 m c (ix2 q j) :=
  read_w4 (w2 m c) t q j
theorem b2_blk (c : Dev nD) (t : Fin cfg0.N) (j : Fin 4) :
    (iblk m c 5 t : Vec Ideal S4 .f32) (ix1 j) = b2 m c (ix1 j) :=
  read_w5 (b2 m c) t j
theorem we1_blk (c : Dev nD) (t : Fin cfg0.N) (k : Fin 128) (q : Fin 128) :
    (iblk m c 6 t : Vec Ideal S128x128 .bf16) (ix2 k q) = we1 m c (ix2 k q) :=
  read_w6 (we1 m c) t k q
theorem be1_blk (c : Dev nD) (t : Fin cfg0.N) (q : Fin 128) :
    (iblk m c 7 t : Vec Ideal S128 .f32) (ix1 q) = be1 m c (ix1 q) :=
  read_w7 (be1 m c) t q
theorem we2_blk (c : Dev nD) (t : Fin cfg0.N) (q : Fin 128) (j : Fin 1) :
    (iblk m c 8 t : Vec Ideal S128x1 .bf16) (ix2 q j) = we2 m c (ix2 q j) :=
  read_w8 (we2 m c) t q j
theorem be2_blk (c : Dev nD) (t : Fin cfg0.N) (j : Fin 1) :
    (iblk m c 9 t : Vec Ideal S1 .f32) (ix1 j) = be2 m c (ix1 j) :=
  read_w9 (be2 m c) t j

/-! ## The attribute predictions (output window 10) -/

/-- The attribute array as one function of the region-entry arrays: at edge i 0, output i 1, the decoder head of that
    edge's positive-feature row under the left half of the side-by-side weights. -/
def attrG (c : Dev nD) : Vec Ideal S640000x4 .f32 := fun i =>
  head (n := 4) (fun k => posFeat m c (ix2 (i 0 : Fin 640000) k)) (fun k q => wcat m c (ix2 k (lo q)))
    (fun q => bcat m c (ix1 (lo q))) (fun q j => w2 m c (ix2 q j)) (fun j => b2 m c (ix1 j)) (i 1 : Fin 4)

theorem attrG_apply (c : Dev nD) (r : Fin 640000) (j : Fin 4) :
    attrG m c (ix2 r j)
      = head (fun k => posFeat m c (ix2 r k)) (fun k q => wcat m c (ix2 k (lo q))) (fun q => bcat m c (ix1 (lo q)))
          (fun q j => w2 m c (ix2 q j)) (fun j => b2 m c (ix1 j)) j := rfl

/-- What point t writes back to the attribute array is block t of attrG. -/
theorem attr_flushed (c : Dev nD) (t : Fin cfg0.N) :
    (dats m 0 c).flushed 10 t = ((cfg0.win 10).blk t).view.read (Elt Ideal) (attrG m c) := by
  show (cfg0.win 10).cut (grid0.coords t) ((dats m 0 c).after 10 t) = _
  rw [after0_10]
  unfold out0_10
  rw [View.canon_unit_zero hz2]
  simp only [View.ld_unit_zero (S := S5000x128) hz2, View.ld_unit_zero (S := S128x256) hz2,
    View.ld_unit_zero (S := S256) hz1, View.ld_unit_zero (S := S128x4) hz2, View.ld_unit_zero (S := S4) hz1]
  refine ext_ix2 (n0 := 5000) (n1 := 4) fun p j => ?_
  rw [read_w10 (attrG m c) t p j, attrG_apply]
  show k0_pay3 (F := Ideal) (iblk m c 0 t) (iblk m c 2 t) (iblk m c 3 t) (iblk m c 4 t) (iblk m c 5 t) (ix2 p j) = _
  refine (Payload.attr_block (iblk m c 0 t) (iblk m c 2 t) (iblk m c 3 t) (iblk m c 4 t) (iblk m c 5 t) p j).trans ?_
  simp only [posFeat_blk m c t, wcat_blk m c t, bcat_blk m c t, w2_blk m c t, b2_blk m c t]

/-- Edge r lies in the block of point r / 5000. -/
theorem attr_cover (i : S640000x4.Idx) :
    ∃ t : Fin cfg0.N, (cfg0.win 10).flush t = true ∧ i ∈ ((cfg0.win 10).blk t).view.set := by
  have h0 : (i 0).val < 640000 := (i 0).isLt
  have h1 : (i 1).val < 4 := (i 1).isLt
  obtain ⟨tt, htt⟩ : ∃ tt : Fin cfg0.N, tt.val = (i 0).val / 5000 :=
    ⟨⟨(i 0).val / 5000, Nat.lt_of_lt_of_eq (by omega) N_0.symm⟩, rfl⟩
  obtain ⟨e0, e1⟩ := idx_w10 tt
  refine ⟨tt, flush0_10 tt, ?_⟩
  show i ∈ ((View.whole main_v26_0).slice (win0_10.rect tt)).set
  rw [View.set_slice_whole, Rect.mem_set_unit]
  intro a
  match a with
  | ⟨0, _⟩ =>
    show win0_10.index tt (0 : Fin 2) * 5000 ≤ (i 0).val ∧ (i 0).val < win0_10.index tt (0 : Fin 2) * 5000 + 5000
    rw [e0]; omega
  | ⟨1, _⟩ =>
    show win0_10.index tt (1 : Fin 2) * 4 ≤ (i 1).val ∧ (i 1).val < win0_10.index tt (1 : Fin 2) * 4 + 4
    rw [e1]; omega

/-- The attribute array after the region is attrG. -/
theorem attr_array (c : Dev nD) : attrOut m c = attrG m c :=
  (dats m 0 c).arrAt_eq_of_cover 10 (attrG m c) (fun t _ => attr_flushed m c t) attr_cover

/-- The attribute predictions after the region, at edge t, output j. -/
theorem attr_final (c : Dev nD) (t : Fin 640000) (j : Fin 4) :
    attrOut m c (ix2 t j)
      = head (fun k => posFeat m c (ix2 t k)) (fun k q => wcat m c (ix2 k (lo q))) (fun q => bcat m c (ix1 (lo q)))
          (fun q j => w2 m c (ix2 q j)) (fun j => b2 m c (ix1 j)) j := by
  rw [attr_array]
  exact attrG_apply m c t j

/-! ## The positive edges' scores (output window 11) -/

/-- The positive-score column as one function of the region-entry arrays: at edge i 0 the edge head of that edge's
    positive-feature row under the right half of the side-by-side weights. -/
def posG (c : Dev nD) : Vec Ideal S640000x1 .f32 := fun i =>
  head (n := 1) (fun k => posFeat m c (ix2 (i 0 : Fin 640000) k)) (fun k q => wcat m c (ix2 k (hi q)))
    (fun q => bcat m c (ix1 (hi q))) (fun q j => we2 m c (ix2 q j)) (fun j => be2 m c (ix1 j)) (i 1 : Fin 1)

theorem posG_apply (c : Dev nD) (r : Fin 640000) (j : Fin 1) :
    posG m c (ix2 r j)
      = head (fun k => posFeat m c (ix2 r k)) (fun k q => wcat m c (ix2 k (hi q))) (fun q => bcat m c (ix1 (hi q)))
          (fun q j => we2 m c (ix2 q j)) (fun j => be2 m c (ix1 j)) j := rfl

/-- What point t writes back to the positive-score column is block t of posG. -/
theorem pos_flushed (c : Dev nD) (t : Fin cfg0.N) :
    (dats m 0 c).flushed 11 t = ((cfg0.win 11).blk t).view.read (Elt Ideal) (posG m c) := by
  show (cfg0.win 11).cut (grid0.coords t) ((dats m 0 c).after 11 t) = _
  rw [after0_11]
  unfold out0_11
  rw [View.canon_unit_zero hz2]
  simp only [View.ld_unit_zero (S := S5000x128) hz2, View.ld_unit_zero (S := S128x256) hz2,
    View.ld_unit_zero (S := S256) hz1, View.ld_unit_zero (S := S128x1) hz2, View.ld_unit_zero (S := S1) hz1]
  refine ext_ix2 (n0 := 5000) (n1 := 1) fun p j => ?_
  rw [read_w11 (posG m c) t p j, posG_apply]
  show k0_pay4 (F := Ideal) (iblk m c 0 t) (iblk m c 2 t) (iblk m c 3 t) (iblk m c 8 t) (iblk m c 9 t) (ix2 p j) = _
  refine (Payload.pos_block (iblk m c 0 t) (iblk m c 2 t) (iblk m c 3 t) (iblk m c 8 t) (iblk m c 9 t) p j).trans ?_
  simp only [posFeat_blk m c t, wcat_blk m c t, bcat_blk m c t, we2_blk m c t, be2_blk m c t]

/-- Edge r lies in the block of point r / 5000. -/
theorem pos_cover (i : S640000x1.Idx) :
    ∃ t : Fin cfg0.N, (cfg0.win 11).flush t = true ∧ i ∈ ((cfg0.win 11).blk t).view.set := by
  have h0 : (i 0).val < 640000 := (i 0).isLt
  have h1 : (i 1).val < 1 := (i 1).isLt
  obtain ⟨tt, htt⟩ : ∃ tt : Fin cfg0.N, tt.val = (i 0).val / 5000 :=
    ⟨⟨(i 0).val / 5000, Nat.lt_of_lt_of_eq (by omega) N_0.symm⟩, rfl⟩
  obtain ⟨e0, e1⟩ := idx_w11 tt
  refine ⟨tt, flush0_11 tt, ?_⟩
  show i ∈ ((View.whole main_v26_1).slice (win0_11.rect tt)).set
  rw [View.set_slice_whole, Rect.mem_set_unit]
  intro a
  match a with
  | ⟨0, _⟩ =>
    show win0_11.index tt (0 : Fin 2) * 5000 ≤ (i 0).val ∧ (i 0).val < win0_11.index tt (0 : Fin 2) * 5000 + 5000
    rw [e0]; omega
  | ⟨1, _⟩ =>
    show win0_11.index tt (1 : Fin 2) * 1 ≤ (i 1).val ∧ (i 1).val < win0_11.index tt (1 : Fin 2) * 1 + 1
    rw [e1]; omega

/-- The positive-score column after the region is posG. -/
theorem pos_array (c : Dev nD) : posOut m c = posG m c :=
  (dats m 0 c).arrAt_eq_of_cover 11 (posG m c) (fun t _ => pos_flushed m c t) pos_cover

/-- The positive edges' score column after the region, at edge t. -/
theorem pos_final (c : Dev nD) (t : Fin 640000) (j : Fin 1) :
    posOut m c (ix2 t j)
      = head (fun k => posFeat m c (ix2 t k)) (fun k q => wcat m c (ix2 k (hi q))) (fun q => bcat m c (ix1 (hi q)))
          (fun q j => we2 m c (ix2 q j)) (fun j => be2 m c (ix1 j)) j := by
  rw [pos_array]
  exact posG_apply m c t j

/-! ## The negative edges' scores (output window 12) -/

/-- The negative-score column as one function of the region-entry arrays: at edge i 0 the edge head of that edge's
    negative-feature row under the edge weights. -/
def negG (c : Dev nD) : Vec Ideal S640000x1 .f32 := fun i =>
  head (n := 1) (fun k => negFeat m c (ix2 (i 0 : Fin 640000) k)) (fun k q => we1 m c (ix2 k q))
    (fun q => be1 m c (ix1 q)) (fun q j => we2 m c (ix2 q j)) (fun j => be2 m c (ix1 j)) (i 1 : Fin 1)

theorem negG_apply (c : Dev nD) (r : Fin 640000) (j : Fin 1) :
    negG m c (ix2 r j)
      = head (fun k => negFeat m c (ix2 r k)) (fun k q => we1 m c (ix2 k q)) (fun q => be1 m c (ix1 q))
          (fun q j => we2 m c (ix2 q j)) (fun j => be2 m c (ix1 j)) j := rfl

/-- What point t writes back to the negative-score column is block t of negG. -/
theorem neg_flushed (c : Dev nD) (t : Fin cfg0.N) :
    (dats m 0 c).flushed 12 t = ((cfg0.win 12).blk t).view.read (Elt Ideal) (negG m c) := by
  show (cfg0.win 12).cut (grid0.coords t) ((dats m 0 c).after 12 t) = _
  rw [after0_12]
  unfold out0_12
  rw [View.canon_unit_zero hz2]
  simp only [View.ld_unit_zero (S := S5000x128) hz2, View.ld_unit_zero (S := S128x128) hz2,
    View.ld_unit_zero (S := S128) hz1, View.ld_unit_zero (S := S128x1) hz2, View.ld_unit_zero (S := S1) hz1]
  refine ext_ix2 (n0 := 5000) (n1 := 1) fun p j => ?_
  rw [read_w12 (negG m c) t p j, negG_apply]
  show k0_pay1 (F := Ideal) (iblk m c 1 t) (iblk m c 6 t) (iblk m c 7 t) (iblk m c 8 t) (iblk m c 9 t) (ix2 p j) = _
  refine (Payload.neg_block (iblk m c 1 t) (iblk m c 6 t) (iblk m c 7 t) (iblk m c 8 t) (iblk m c 9 t) p j).trans ?_
  simp only [negFeat_blk m c t, we1_blk m c t, be1_blk m c t, we2_blk m c t, be2_blk m c t]

/-- Edge r lies in the block of point r / 5000. -/
theorem neg_cover (i : S640000x1.Idx) :
    ∃ t : Fin cfg0.N, (cfg0.win 12).flush t = true ∧ i ∈ ((cfg0.win 12).blk t).view.set := by
  have h0 : (i 0).val < 640000 := (i 0).isLt
  have h1 : (i 1).val < 1 := (i 1).isLt
  obtain ⟨tt, htt⟩ : ∃ tt : Fin cfg0.N, tt.val = (i 0).val / 5000 :=
    ⟨⟨(i 0).val / 5000, Nat.lt_of_lt_of_eq (by omega) N_0.symm⟩, rfl⟩
  obtain ⟨e0, e1⟩ := idx_w12 tt
  refine ⟨tt, flush0_12 tt, ?_⟩
  show i ∈ ((View.whole main_v26_2).slice (win0_12.rect tt)).set
  rw [View.set_slice_whole, Rect.mem_set_unit]
  intro a
  match a with
  | ⟨0, _⟩ =>
    show win0_12.index tt (0 : Fin 2) * 5000 ≤ (i 0).val ∧ (i 0).val < win0_12.index tt (0 : Fin 2) * 5000 + 5000
    rw [e0]; omega
  | ⟨1, _⟩ =>
    show win0_12.index tt (1 : Fin 2) * 1 ≤ (i 1).val ∧ (i 1).val < win0_12.index tt (1 : Fin 2) * 1 + 1
    rw [e1]; omega

/-- The negative-score column after the region is negG. -/
theorem neg_array (c : Dev nD) : negOut m c = negG m c :=
  (dats m 0 c).arrAt_eq_of_cover 12 (negG m c) (fun t _ => neg_flushed m c t) neg_cover

/-- The negative edges' score column after the region, at edge t. -/
theorem neg_final (c : Dev nD) (t : Fin 640000) (j : Fin 1) :
    negOut m c (ix2 t j)
      = head (fun k => negFeat m c (ix2 t k)) (fun k q => we1 m c (ix2 k q)) (fun q => be1 m c (ix1 q))
          (fun q j => we2 m c (ix2 q j)) (fun j => be2 m c (ix1 j)) j := by
  rw [neg_array]
  exact negG_apply m c t j

end Cert.EdgeDecoder.Blocks

end
-- ==== Proof.RefSpec.lean ====
/-
  The reference's three results, index by index, are the edge decoder's heads applied to the reference's own rectified
  feature rows.

  Each result is a logistic of an affine read-out of a rectified hidden layer. The reference writes these as whole-array
  operations; read at one index, a matrix product is a sum over the contracted axis, a broadcast reads its operand at the
  surviving coordinates, and the flattening of a one-column array reads that column. The hidden layer is identified
  first, at an edge and a unit; the result then follows by the same reading of the outer operations.
-/
import proofs.«420310_j23433341567203_3_alg».proof.Proof.Gen.ReferenceIdeal.Read
import proofs.«420310_j23433341567203_3_alg».proof.Proof.Spec
import Idealize.ShloMosaic.Lib.IdealHost

noncomputable section

namespace Cert.EdgeDecoder.Ref

open Cert.ReferenceIdeal Cert.ReferenceIdeal.Read Cert.EdgeDecoder
open Idealize.ShloMosaic Idealize.ShloMosaic.ValueIdx
open scoped BigOperators

/-- The second rectification of the positive edges' product is the first. -/
theorem feat54_eq (x0 : (⟨S100000x128, .f32⟩ : BufTy).Contents (Elt Ideal)) (x1 : (⟨S2x640000, .i32⟩ : BufTy).Contents (Elt Ideal)) :
    val_main_v54 (F := Ideal) x0 x1 = val_main_v38 (F := Ideal) x0 x1 := by
  unfold val_main_v54 val_main_v38 val_main_call2_v0 val_main_call0_v0 val_main_call2_cst val_main_call0_cst
  rfl

/-- The attribute head's rectified hidden layer at edge t, unit q: a row of the first weight matrix against the feature
    row, plus the bias, cut off below at zero. -/
private theorem hid43_at (x0 : (⟨S100000x128, .f32⟩ : BufTy).Contents (Elt Ideal)) (x1 : (⟨S2x640000, .i32⟩ : BufTy).Contents (Elt Ideal))
    (x3 : (⟨S128x128, .f32⟩ : BufTy).Contents (Elt Ideal)) (x4 : (⟨S128, .f32⟩ : BufTy).Contents (Elt Ideal)) (t : Fin 640000) (q : Fin 128) :
    val_main_v43 (F := Ideal) x0 x1 x3 x4 (ix2 t q)
      = hidden (fun k => val_main_v38 (F := Ideal) x0 x1 (ix2 t k)) (fun k q => x3 (ix2 k q)) (fun q => x4 (ix1 q)) q := by
  have el : ∀ k : Fin 128, lidx_main_v39 (ix2 t q) k = ix2 t k := fun k =>
    funext fun a => Fin.ext (by match a with | ⟨0, _⟩ => rfl | ⟨1, _⟩ => rfl)
  have er : ∀ k : Fin 128, ridx_main_v39 (ix2 t q) k = ix2 k q := fun k =>
    funext fun a => Fin.ext (by match a with | ⟨0, _⟩ => rfl | ⟨1, _⟩ => rfl)
  have eb : idx_main_v40 (idx_main_v41 (ix2 t q)) = ix1 q :=
    funext fun a => Fin.ext (by match a with | ⟨0, _⟩ => rfl)
  rw [val_main_v43_apply, val_main_call1_v0_apply, val_main_call1_cst_apply, val_main_v42_apply, val_main_v39_apply,
    val_main_v41_apply, val_main_v40_apply]
  simp only [el, er, eb, Ideal.maximumf_def, Ideal.addf_def, Ideal.ofBits_def, Ideal.ofBits_zero_f32]
  rfl

/-- The reference's attribute predictions at edge t, output j. -/
theorem attr_at (x0 : (⟨S100000x128, .f32⟩ : BufTy).Contents (Elt Ideal)) (x1 : (⟨S2x640000, .i32⟩ : BufTy).Contents (Elt Ideal))
    (x3 : (⟨S128x128, .f32⟩ : BufTy).Contents (Elt Ideal)) (x4 : (⟨S128, .f32⟩ : BufTy).Contents (Elt Ideal))
    (x5 : (⟨S128x4, .f32⟩ : BufTy).Contents (Elt Ideal)) (x6 : (⟨S4, .f32⟩ : BufTy).Contents (Elt Ideal)) (t : Fin 640000) (j : Fin 4) :
    val_main_v53 (F := Ideal) x0 x1 x3 x4 x5 x6 (ix2 t j)
      = head (fun k => val_main_v38 (F := Ideal) x0 x1 (ix2 t k)) (fun k q => x3 (ix2 k q)) (fun q => x4 (ix1 q))
          (fun q j => x5 (ix2 q j)) (fun j => x6 (ix1 j)) j := by
  have el : ∀ k : Fin 128, lidx_main_v44 (ix2 t j) k = ix2 t k := fun k =>
    funext fun a => Fin.ext (by match a with | ⟨0, _⟩ => rfl | ⟨1, _⟩ => rfl)
  have er : ∀ k : Fin 128, ridx_main_v44 (ix2 t j) k = ix2 k j := fun k =>
    funext fun a => Fin.ext (by match a with | ⟨0, _⟩ => rfl | ⟨1, _⟩ => rfl)
  have eb : idx_main_v45 (idx_main_v46 (ix2 t j)) = ix1 j :=
    funext fun a => Fin.ext (by match a with | ⟨0, _⟩ => rfl)
  rw [val_main_v53_apply, val_main_v52_apply, val_main_cst_7_apply, val_main_v51_apply, val_main_v50_apply,
    val_main_cst_apply, val_main_v49_apply, val_main_v48_apply, val_main_v47_apply, val_main_v44_apply,
    val_main_v46_apply, val_main_v45_apply]
  simp only [el, er, eb, hid43_at, Ideal.hostDivf_def, Ideal.addf_def, Ideal.hostUnary_exp_def, Ideal.hostNegf_def,
    Ideal.negf_def, Ideal.ofBits_def, Ideal.ofBits_one_f32]
  rfl

/-- The one column of a [640000, 1] array read through its flattening. -/
private theorem col_idx (t : Fin 640000) : idx_main_v64 (ix1 t) = ix2 t (0 : Fin 1) :=
  funext fun a => Fin.ext (by match a with | ⟨0, _⟩ => exact Nat.div_one _ | ⟨1, _⟩ => rfl)

/-- The positive-edge head's rectified hidden layer at edge t, unit q, over the shared feature row. -/
private theorem hid59_at (x0 : (⟨S100000x128, .f32⟩ : BufTy).Contents (Elt Ideal)) (x1 : (⟨S2x640000, .i32⟩ : BufTy).Contents (Elt Ideal))
    (x7 : (⟨S128x128, .f32⟩ : BufTy).Contents (Elt Ideal)) (x8 : (⟨S128, .f32⟩ : BufTy).Contents (Elt Ideal)) (t : Fin 640000) (q : Fin 128) :
    val_main_v59 (F := Ideal) x0 x1 x7 x8 (ix2 t q)
      = hidden (fun k => val_main_v38 (F := Ideal) x0 x1 (ix2 t k)) (fun k q => x7 (ix2 k q)) (fun q => x8 (ix1 q)) q := by
  have el : ∀ k : Fin 128, lidx_main_v55 (ix2 t q) k = ix2 t k := fun k =>
    funext fun a => Fin.ext (by match a with | ⟨0, _⟩ => rfl | ⟨1, _⟩ => rfl)
  have er : ∀ k : Fin 128, ridx_main_v55 (ix2 t q) k = ix2 k q := fun k =>
    funext fun a => Fin.ext (by match a with | ⟨0, _⟩ => rfl | ⟨1, _⟩ => rfl)
  have eb : idx_main_v56 (idx_main_v57 (ix2 t q)) = ix1 q :=
    funext fun a => Fin.ext (by match a with | ⟨0, _⟩ => rfl)
  rw [val_main_v59_apply, val_main_call3_v0_apply, val_main_call3_cst_apply, val_main_v58_apply, val_main_v55_apply,
    val_main_v57_apply, val_main_v56_apply, feat54_eq]
  simp only [el, er, eb, Ideal.maximumf_def, Ideal.addf_def, Ideal.ofBits_def, Ideal.ofBits_zero_f32]
  rfl

/-- The reference's positive-edge score at edge t. -/
theorem pos_at (x0 : (⟨S100000x128, .f32⟩ : BufTy).Contents (Elt Ideal)) (x1 : (⟨S2x640000, .i32⟩ : BufTy).Contents (Elt Ideal))
    (x7 : (⟨S128x128, .f32⟩ : BufTy).Contents (Elt Ideal)) (x8 : (⟨S128, .f32⟩ : BufTy).Contents (Elt Ideal))
    (x9 : (⟨S128x1, .f32⟩ : BufTy).Contents (Elt Ideal)) (x10 : (⟨S1, .f32⟩ : BufTy).Contents (Elt Ideal)) (t : Fin 640000) :
    val_main_v70 (F := Ideal) x0 x1 x7 x8 x9 x10 (ix1 t)
      = head (fun k => val_main_v38 (F := Ideal) x0 x1 (ix2 t k)) (fun k q => x7 (ix2 k q)) (fun q => x8 (ix1 q))
          (fun q j => x9 (ix2 q j)) (fun j => x10 (ix1 j)) (0 : Fin 1) := by
  have el : ∀ k : Fin 128, lidx_main_v60 (ix2 t (0 : Fin 1)) k = ix2 t k := fun k =>
    funext fun a => Fin.ext (by match a with | ⟨0, _⟩ => rfl | ⟨1, _⟩ => rfl)
  have er : ∀ k : Fin 128, ridx_main_v60 (ix2 t (0 : Fin 1)) k = ix2 k (0 : Fin 1) := fun k =>
    funext fun a => Fin.ext (by match a with | ⟨0, _⟩ => rfl | ⟨1, _⟩ => rfl)
  have eb : idx_main_v61 (idx_main_v62 (ix2 t (0 : Fin 1))) = ix1 (0 : Fin 1) :=
    funext fun a => Fin.ext (by match a with | ⟨0, _⟩ => rfl)
  rw [val_main_v70_apply, val_main_v69_apply, val_main_cst_9_apply, val_main_v68_apply, val_main_v67_apply,
    val_main_cst_8_apply, val_main_v66_apply, val_main_v65_apply, val_main_v64_apply, col_idx, val_main_v63_apply,
    val_main_v60_apply, val_main_v62_apply, val_main_v61_apply]
  simp only [el, er, eb, hid59_at, Ideal.hostDivf_def, Ideal.addf_def, Ideal.hostUnary_exp_def, Ideal.hostNegf_def,
    Ideal.negf_def, Ideal.ofBits_def, Ideal.ofBits_one_f32]
  rfl

/-- The same column read, for the negative edges' flattening. -/
private theorem col_idx' (t : Fin 640000) : idx_main_v81 (ix1 t) = ix2 t (0 : Fin 1) :=
  funext fun a => Fin.ext (by match a with | ⟨0, _⟩ => exact Nat.div_one _ | ⟨1, _⟩ => rfl)

/-- The negative-edge head's rectified hidden layer at edge t, unit q, over the negative edges' feature row. -/
private theorem hid76_at (x0 : (⟨S100000x128, .f32⟩ : BufTy).Contents (Elt Ideal)) (x2 : (⟨S2x640000, .i32⟩ : BufTy).Contents (Elt Ideal))
    (x7 : (⟨S128x128, .f32⟩ : BufTy).Contents (Elt Ideal)) (x8 : (⟨S128, .f32⟩ : BufTy).Contents (Elt Ideal)) (t : Fin 640000) (q : Fin 128) :
    val_main_v76 (F := Ideal) x0 x2 x7 x8 (ix2 t q)
      = hidden (fun k => val_main_v71 (F := Ideal) x0 x2 (ix2 t k)) (fun k q => x7 (ix2 k q)) (fun q => x8 (ix1 q)) q := by
  have el : ∀ k : Fin 128, lidx_main_v72 (ix2 t q) k = ix2 t k := fun k =>
    funext fun a => Fin.ext (by match a with | ⟨0, _⟩ => rfl | ⟨1, _⟩ => rfl)
  have er : ∀ k : Fin 128, ridx_main_v72 (ix2 t q) k = ix2 k q := fun k =>
    funext fun a => Fin.ext (by match a with | ⟨0, _⟩ => rfl | ⟨1, _⟩ => rfl)
  have eb : idx_main_v73 (idx_main_v74 (ix2 t q)) = ix1 q :=
    funext fun a => Fin.ext (by match a with | ⟨0, _⟩ => rfl)
  rw [val_main_v76_apply, val_main_call5_v0_apply, val_main_call5_cst_apply, val_main_v75_apply, val_main_v72_apply,
    val_main_v74_apply, val_main_v73_apply]
  simp only [el, er, eb, Ideal.maximumf_def, Ideal.addf_def, Ideal.ofBits_def, Ideal.ofBits_zero_f32]
  rfl

/-- The reference's negative-edge score at edge t. -/
theorem neg_at (x0 : (⟨S100000x128, .f32⟩ : BufTy).Contents (Elt Ideal)) (x2 : (⟨S2x640000, .i32⟩ : BufTy).Contents (Elt Ideal))
    (x7 : (⟨S128x128, .f32⟩ : BufTy).Contents (Elt Ideal)) (x8 : (⟨S128, .f32⟩ : BufTy).Contents (Elt Ideal))
    (x9 : (⟨S128x1, .f32⟩ : BufTy).Contents (Elt Ideal)) (x10 : (⟨S1, .f32⟩ : BufTy).Contents (Elt Ideal)) (t : Fin 640000) :
    val_main_v87 (F := Ideal) x0 x2 x7 x8 x9 x10 (ix1 t)
      = head (fun k => val_main_v71 (F := Ideal) x0 x2 (ix2 t k)) (fun k q => x7 (ix2 k q)) (fun q => x8 (ix1 q))
          (fun q j => x9 (ix2 q j)) (fun j => x10 (ix1 j)) (0 : Fin 1) := by
  have el : ∀ k : Fin 128, lidx_main_v77 (ix2 t (0 : Fin 1)) k = ix2 t k := fun k =>
    funext fun a => Fin.ext (by match a with | ⟨0, _⟩ => rfl | ⟨1, _⟩ => rfl)
  have er : ∀ k : Fin 128, ridx_main_v77 (ix2 t (0 : Fin 1)) k = ix2 k (0 : Fin 1) := fun k =>
    funext fun a => Fin.ext (by match a with | ⟨0, _⟩ => rfl | ⟨1, _⟩ => rfl)
  have eb : idx_main_v78 (idx_main_v79 (ix2 t (0 : Fin 1))) = ix1 (0 : Fin 1) :=
    funext fun a => Fin.ext (by match a with | ⟨0, _⟩ => rfl)
  rw [val_main_v87_apply, val_main_v86_apply, val_main_cst_11_apply, val_main_v85_apply, val_main_v84_apply,
    val_main_cst_10_apply, val_main_v83_apply, val_main_v82_apply, val_main_v81_apply, col_idx', val_main_v80_apply,
    val_main_v77_apply, val_main_v79_apply, val_main_v78_apply]
  simp only [el, er, eb, hid76_at, Ideal.hostDivf_def, Ideal.addf_def, Ideal.hostUnary_exp_def, Ideal.hostNegf_def,
    Ideal.negf_def, Ideal.ofBits_def, Ideal.ofBits_one_f32]
  rfl

end Cert.EdgeDecoder.Ref

end
-- ==== Proof.IndexRange.lean ====
/-
  The precondition read at one index word: every entry of the two edge-index inputs lies in [-100000, 100000), the range in
  which indexing a table of 100000 rows (negative indices counted from the end) is defined.
-/
import proofs.«420310_j23433341567203_3_alg».proof.Defs
import proofs.«420310_j23433341567203_3_alg».proof.Proof.Gen.Pre_finite_inputs
import Idealize.ShloMosaic.Lib.ReduceAll
import Idealize.ShloMosaic.Lib.ValueIdx
import Idealize.ShloMosaic.Lib.StableHlo.Predicate

noncomputable section

namespace Cert.EdgeDecoder.IndexRange

open Cert.KernelIdeal
open Idealize.ShloMosaic Idealize.ShloMosaic.TcCoe Idealize.SL.Sem Idealize.ShloMosaic.ValueIdx

variable (m : (ℓ : Loc nD τ sig) → Buf (Elt Ideal) ℓ)

/-- The result of a reduction over every axis has one index. -/
instance : Subsingleton Cert.Pre_finite_inputs.S_.Idx := ⟨fun a b => funext fun d => d.elim0⟩

/-- The words -100000 and 100000 read as signed integers. -/
theorem toInt_lo : (4294867296#32 : BitVec 32).toInt = -100000 := by decide
theorem toInt_hi : (100000#32 : BitVec 32).toInt = 100000 := by decide

/-- The two signed comparisons of one word against -100000 and 100000, read back as its range. -/
theorem word_range (w : BitVec 32) (hlo : IntOp.cmpi .sge w 4294867296#32 = 1#1) (hhi : IntOp.cmpi .slt w 100000#32 = 1#1) :
    -100000 ≤ w.toInt ∧ w.toInt < 100000 := by
  rw [IntOp.cmpi_sge, toInt_lo] at hlo
  rw [IntOp.cmpi_slt, toInt_hi] at hhi
  exact ⟨hlo, hhi⟩

/-- THE PRECONDITION DECODED: its last four conjuncts are the two comparisons at every word of each index input. -/
theorem pre_words (h : Cert.Pre_KernelIdeal m) (c : Dev nD) (i : S2x640000.Idx) :
    (IntOp.cmpi .sge ((m ((c.tc : Thread nD τ).loc main_arg1) : IVec S2x640000 32) i) 4294867296#32 = 1#1
      ∧ IntOp.cmpi .slt ((m ((c.tc : Thread nD τ).loc main_arg1) : IVec S2x640000 32) i) 100000#32 = 1#1)
    ∧ (IntOp.cmpi .sge ((m ((c.tc : Thread nD τ).loc main_arg2) : IVec S2x640000 32) i) 4294867296#32 = 1#1
      ∧ IntOp.cmpi .slt ((m ((c.tc : Thread nD τ).loc main_arg2) : IVec S2x640000 32) i) 100000#32 = 1#1) := by
  have e := congrFun (h c) ValueIdx.ix0
  unfold Cert.Pre_finite_inputs.fn Cert.Pre_finite_inputs.fn_part1 Cert.Pre_finite_inputs.fn_part2
    Cert.Pre_finite_inputs.fn_part3 at e
  simp only [andi, IntOp.andi_eq_one] at e
  obtain ⟨⟨⟨⟨-, h46⟩, h50⟩, h54⟩, h58⟩ := e
  exact ⟨⟨Host.reduce_andi_all _ _ _ _ _ h46 i, Host.reduce_andi_all _ _ _ _ _ h50 i⟩,
    Host.reduce_andi_all _ _ _ _ _ h54 i, Host.reduce_andi_all _ _ _ _ _ h58 i⟩

/-- The positive edges' index words are in range. -/
theorem pos_range (h : Cert.Pre_KernelIdeal m) (c : Dev nD) (s : Fin 2) (t : Fin 640000) :
    -100000 ≤ ((m ((c.tc : Thread nD τ).loc main_arg1) : IVec S2x640000 32) (ix2 s t)).toInt
      ∧ ((m ((c.tc : Thread nD τ).loc main_arg1) : IVec S2x640000 32) (ix2 s t)).toInt < 100000 := by
  obtain ⟨⟨hlo, hhi⟩, -⟩ := pre_words m h c (ix2 s t)
  exact word_range _ hlo hhi

/-- The negative edges' index words are in range. -/
theorem neg_range (h : Cert.Pre_KernelIdeal m) (c : Dev nD) (s : Fin 2) (t : Fin 640000) :
    -100000 ≤ ((m ((c.tc : Thread nD τ).loc main_arg2) : IVec S2x640000 32) (ix2 s t)).toInt
      ∧ ((m ((c.tc : Thread nD τ).loc main_arg2) : IVec S2x640000 32) (ix2 s t)).toInt < 100000 := by
  obtain ⟨-, hlo, hhi⟩ := pre_words m h c (ix2 s t)
  exact word_range _ hlo hhi

end Cert.EdgeDecoder.IndexRange

end
-- ==== Proof.TakeInRange.lean ====
/-
  Row lookup with a fill value is plain row lookup when every index is in range.

  The kernel's lookup of 640000 rows in a table of 100000 first counts a negative index from the end (idx < 0 ↦ idx + 100000),
  then gathers (the gather clamps its start index into the table), and finally replaces by a fill value every row whose
  wrapped index is not in [0, 99999]. When every index lies in [-100000, 100000) the wrapped index is in [0, 99999], the
  range test is true in every row, and the selection returns the gathered rows.
-/
import proofs.«420310_j23433341567203_3_alg».proof.Proof.Gen.KernelIdeal
import Idealize.ShloMosaic.PureOps.Ideal
import Idealize.ShloMosaic.Lib.ReduceAll
import Idealize.ShloMosaic.Lib.ValueIdx
import Idealize.ShloMosaic.Lib.StableHlo.Predicate

noncomputable section

namespace Cert.EdgeDecoder.Take

open Cert.KernelIdeal Cert.KernelIdeal.Facts₀
open Idealize.ShloMosaic Idealize.ShloMosaic.ValueIdx

/-- An index counted from the end when negative. -/
def wrapped (idx : IVec S640000 32) : IVec S640000 32 :=
  select (cmpi .slt idx (broadcastInDim S640000 ![] bcast_S_S640000 (constantI S_ 32 0#32)))
    (addi idx (broadcastInDim S640000 ![] bcast_S_S640000 (constantI S_ 32 100000#32))) idx

/-- The wrapped indices as the gather's column of start indices. -/
def starts (idx : IVec S640000 32) : IVec S640000x1 32 :=
  broadcastInDim S640000x1 ![0] bcast_S640000_S640000x1_0 (wrapped idx)

/-- The range test of the wrapped indices, one bit per row. -/
def inTable (idx : IVec S640000 32) : IVec S640000 1 :=
  (fun x v => Host.reduce IntOp.andi x v reducesTo_S640000x1_S640000_d1 h_S_)
    (andi (cmpi .sge (starts idx) (broadcastInDim S640000x1 ![] bcast_S_S640000x1 (constantI S_ 32 0#32)))
      (cmpi .sle (starts idx) (broadcastInDim S640000x1 ![0, 1] bcast_S1x1_S640000x1_0_1
        (broadcastInDim S1x1 ![1] bcast_S1_S1x1_1 (constantI S1 32 99999#32)))))
    (constantI S_ 1 1#1)

/-- The one-bit word of a Boolean is 1 exactly when the Boolean is true. -/
theorem ofBool_one (b : Bool) : BitVec.ofBool b = 1#1 ↔ b = true := by cases b <;> decide

/-- One index word in [-100000, 100000), wrapped, passes the range test. -/
theorem wrap_in_table (w : BitVec 32) (h0 : -100000 ≤ w.toInt) (h1 : w.toInt < 100000) :
    IntOp.andi (IntOp.cmpi .sge (Scalar.select (IntOp.cmpi .slt w 0#32) (w + 100000#32) w) 0#32)
      (IntOp.cmpi .sle (Scalar.select (IntOp.cmpi .slt w 0#32) (w + 100000#32) w) 99999#32) = 1#1 := by
  have key : ∀ v : BitVec 32, 0 ≤ v.toInt → v.toInt ≤ 99999 →
      IntOp.andi (IntOp.cmpi .sge v 0#32) (IntOp.cmpi .sle v 99999#32) = 1#1 := by
    intro v hv0 hv1
    have e0 : IntOp.cmpi .sge v 0#32 = 1#1 := by
      unfold IntOp.cmpi
      rw [ofBool_one]
      simp only [BitVec.sle, decide_eq_true_eq]
      simpa using hv0
    have e1 : IntOp.cmpi .sle v 99999#32 = 1#1 := by
      unfold IntOp.cmpi
      rw [ofBool_one]
      simp only [BitVec.sle, decide_eq_true_eq]
      have : (99999#32 : BitVec 32).toInt = 99999 := by decide
      rw [this]; exact hv1
    rw [e0, e1]; decide
  by_cases hneg : w.toInt < 0
  · have hs : IntOp.cmpi .slt w 0#32 = 1#1 := by
      unfold IntOp.cmpi
      rw [ofBool_one]
      simp only [BitVec.slt, decide_eq_true_eq]
      simpa using hneg
    rw [hs]
    have hsel : Scalar.select (1#1) (w + 100000#32) w = w + 100000#32 := if_pos rfl
    rw [hsel]
    have hadd : (w + 100000#32).toInt = w.toInt + 100000 := by
      rw [BitVec.toInt_add]
      have : (100000#32 : BitVec 32).toInt = 100000 := by decide
      rw [this]
      exact Int.bmod_eq_of_le (by norm_num; omega) (by norm_num; omega)
    exact key _ (by omega) (by omega)
  · have hs : IntOp.cmpi .slt w 0#32 = 0#1 := by
      unfold IntOp.cmpi
      have : w.slt 0#32 = false := by
        simp only [BitVec.slt, decide_eq_false_iff_not]
        simpa using hneg
      rw [this]; rfl
    rw [hs]
    have hsel : Scalar.select (0#1) (w + 100000#32) w = w := if_neg (by decide)
    rw [hsel]
    exact key _ (by omega) (by omega)

/-- A left fold by `and` from 1 over one-bit words that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    refine foldl_andi_ones f l _ ?_ (fun n hn => h n (List.mem_cons_of_mem _ hn))
    rw [hi, h a (by simp)]; decide

/-- With every index in range, the range test is true in every row. -/
theorem inTable_all (idx : IVec S640000 32) (h : ∀ t : Fin 640000, -100000 ≤ (idx (ix1 t)).toInt ∧ (idx (ix1 t)).toInt < 100000) :
    inTable idx = fun _ => 1#1 := by
  funext j
  unfold inTable
  dsimp only
  rw [Host.reduce_eq_foldl]
  refine foldl_andi_ones _ _ _ rfl (fun i _ => ?_)
  -- the column of start indices at row (i 0) is the wrapped index of that row
  obtain ⟨k, hk⟩ : ∃ k : S640000.Idx, starts idx i = wrapped idx k := ⟨_, rfl⟩
  have hr : -100000 ≤ (idx k).toInt ∧ (idx k).toInt < 100000 := by
    rw [eq_ix1 k]; exact h _
  have e := wrap_in_table (idx k) hr.1 hr.2
  show IntOp.andi (IntOp.cmpi .sge (starts idx i) 0#32) (IntOp.cmpi .sle (starts idx i) 99999#32) = 1#1
  rw [hk]
  exact e

/-- THE LOOKUP WITH A FILL VALUE IS THE GATHER, when every index is in range. -/
theorem take_eq_gather (x : FVec Ideal S100000x128 .f32) (idx : IVec S640000 32)
    (h : ∀ t : Fin 640000, -100000 ≤ (idx (ix1 t)).toInt ∧ (idx (ix1 t)).toInt < 100000) :
    select (broadcastInDim S640000x128 ![0] bcast_S640000_S640000x128_0 (inTable idx))
        (Host.gather gather_S100000x128_S640000x1_S640000x128_1_0_n_n_0_1_1128 x (starts idx))
        (broadcastInDim S640000x128 ![] bcast_S_S640000x128 (constant (F := Ideal) S_ .f32 0x7FC00000#32))
      = Host.gather gather_S100000x128_S640000x1_S640000x128_1_0_n_n_0_1_1128 x (starts idx) := by
  funext i
  rw [ValueIdx.select_apply, inTable_all idx h]
  exact ValueIdx.select_one _ _

end Cert.EdgeDecoder.Take

end
-- ==== Proof.PreludeFeat.lean ====
/-
  The positive edges' feature array the region finds is the reference's own rectified product, when every edge index is in
  range: the host work before the region looks up the two endpoint rows of every edge (with a fill value for an index out of
  range, which does not occur), multiplies them elementwise, rectifies, and narrows the format, which changes no value.

  The host work before the region is seven stretches of operations run one after the other. The contents of one array
  after all of them are computed stretch by stretch: each stretch, from ANY contents before it, either leaves the array
  alone or writes it as a term of a few arrays before it. Chaining these from the launch memory gives the feature array as
  a term of the table and the index input; the range precondition turns each lookup with a fill value into a plain row
  lookup; and the result is the reference's term, operation for operation.
-/
import proofs.«420310_j23433341567203_3_alg».proof.Proof.Arrays
import proofs.«420310_j23433341567203_3_alg».proof.Proof.IndexRange
import proofs.«420310_j23433341567203_3_alg».proof.Proof.TakeInRange
import proofs.«420310_j23433341567203_3_alg».proof.Proof.Gen.ReferenceIdeal.Read

-- the type of a buffer is a lookup in the program's table of buffers: comparing it with a literal type recurses once per entry
set_option maxRecDepth 4096

noncomputable section

namespace Cert.EdgeDecoder.PreludeFeat

open Cert.KernelIdeal Cert.KernelIdeal.Gen Cert.EdgeDecoder Cert.EdgeDecoder.Arrays
open Idealize.ShloMosaic Idealize.ShloMosaic.TcCoe Idealize.SL.Sem Idealize.ShloMosaic.ValueIdx

variable (m : (ℓ : Loc nD τ sig) → Buf (Elt Ideal) ℓ)

/-! ## Contents moved to a buffer's own type and back

An operation of a module-local function reads and writes its buffers through a transport along "this buffer holds values of
this type". There and back is the identity; at a literal buffer each direction is the identity. -/

/-- There and back is the identity. -/
theorem ofBuf_toBuf {sig : RefSig} {Val : EltTy → Type} {T : BufTy} (x : StableHlo.TRef sig T) (v : T.Contents Val) :
    x.ofBuf (x.toBuf v) = v := by
  simp only [StableHlo.TRef.ofBuf, StableHlo.TRef.toBuf, cast_cast, cast_eq]

/-- Reading the table's buffer at its type is the identity. -/
theorem ofBuf_arg0 (v : FVec Ideal S100000x128 .f32) :
    (StableHlo.TRef.of main_arg0 : StableHlo.TRef sig ⟨S100000x128, .f32⟩).ofBuf (Val := Elt Ideal) v = v := rfl
/-- Reading the first index vector's buffer at its type is the identity. -/
theorem ofBuf_v1 (v : IVec S640000 32) :
    (StableHlo.TRef.of main_v1 : StableHlo.TRef sig ⟨S640000, .i32⟩).ofBuf (Val := Elt Ideal) v = v := rfl
/-- Reading the second index vector's buffer at its type is the identity. -/
theorem ofBuf_v3 (v : IVec S640000 32) :
    (StableHlo.TRef.of main_v3 : StableHlo.TRef sig ⟨S640000, .i32⟩).ofBuf (Val := Elt Ideal) v = v := rfl
/-- Writing the first lookup's result buffer at its type is the identity. -/
theorem toBuf_v8 (v : FVec Ideal S640000x128 .f32) :
    ((StableHlo.TRef.of main_v8 : StableHlo.TRef sig ⟨S640000x128, .f32⟩).toBuf (Val := Elt Ideal) v : FVec Ideal S640000x128 .f32) = v := rfl
/-- Writing the second lookup's result buffer at its type is the identity. -/
theorem toBuf_v9 (v : FVec Ideal S640000x128 .f32) :
    ((StableHlo.TRef.of main_v9 : StableHlo.TRef sig ⟨S640000x128, .f32⟩).toBuf (Val := Elt Ideal) v : FVec Ideal S640000x128 .f32) = v := rfl

/-! ## The seven stretches, each from any contents `G` before it -/

open Idealize.ShloMosaic.StableHlo in
/-- The first stretch (the four slices of the index inputs and their reshapes) leaves the table alone. -/
theorem stage0_arg0 (G : Valuation τ sig (Elt Ideal)) :
    StableHlo.after hostOps0 G (Proc.devRef .tc main_arg0) = G (Proc.devRef .tc main_arg0) := by
  simp only [hostOps0]
  after_results

/-- The first stretch writes the first index vector: row 0 of the first index input, reshaped to a vector. -/
theorem stage0_v1 (G : Valuation τ sig (Elt Ideal)) :
    (StableHlo.after hostOps0 G (Proc.devRef .tc main_v1) : IVec S640000 32)
      = shapeCast S640000 (extractStridedSlice S1x640000 ![0, 0] (G (Proc.devRef .tc main_arg1) : IVec S2x640000 32) slices_S2x640000_S1x640000_0_0) shapeCasts_S1x640000_S640000 := by
  simp only [hostOps0]
  after_results
  rfl

/-- The first stretch writes the second index vector: row 1 of the first index input, reshaped to a vector. -/
theorem stage0_v3 (G : Valuation τ sig (Elt Ideal)) :
    (StableHlo.after hostOps0 G (Proc.devRef .tc main_v3) : IVec S640000 32)
      = shapeCast S640000 (extractStridedSlice S1x640000 ![1, 0] (G (Proc.devRef .tc main_arg1) : IVec S2x640000 32) slices_S2x640000_S1x640000_1_0) shapeCasts_S1x640000_S640000 := by
  simp only [hostOps0]
  after_results
  rfl

open Idealize.ShloMosaic.StableHlo in
/-- The second stretch is the first lookup: the rows the first index vector names, with the fill value where the range test fails. -/
theorem stage1_v8 (G : Valuation τ sig (Elt Ideal)) :
    (StableHlo.after hostOps0_1 G (Proc.devRef .tc main_v8) : S640000x128.Idx → EReal)
      = (select (broadcastInDim S640000x128 ![0] bcast_S640000_S640000x128_0 (Take.inTable (G (Proc.devRef .tc main_v1) : IVec S640000 32)))
          (Host.gather gather_S100000x128_S640000x1_S640000x128_1_0_n_n_0_1_1128 (G (Proc.devRef .tc main_arg0) : FVec Ideal S100000x128 .f32) (Take.starts (G (Proc.devRef .tc main_v1) : IVec S640000 32)))
          (broadcastInDim S640000x128 ![] bcast_S_S640000x128 (constant (F := Ideal) S_ .f32 0x7FC00000#32)) : FVec Ideal S640000x128 .f32) := by
  simp only [hostOps0_1]
  after_results_simp
  simp only [ofBuf_toBuf]
  rw [toBuf_v8]
  simp only [ofBuf_arg0, ofBuf_v1]
  unfold Take.inTable Take.starts Take.wrapped
  rfl

open Idealize.ShloMosaic.StableHlo in
/-- The second stretch leaves the table alone. -/
theorem stage1_arg0 (G : Valuation τ sig (Elt Ideal)) :
    StableHlo.after hostOps0_1 G (Proc.devRef .tc main_arg0) = G (Proc.devRef .tc main_arg0) := by
  simp only [hostOps0_1]
  after_results_simp

open Idealize.ShloMosaic.StableHlo in
/-- The second stretch leaves the second index vector alone. -/
theorem stage1_v3 (G : Valuation τ sig (Elt Ideal)) :
    StableHlo.after hostOps0_1 G (Proc.devRef .tc main_v3) = G (Proc.devRef .tc main_v3) := by
  simp only [hostOps0_1]
  after_results_simp

open Idealize.ShloMosaic.StableHlo in
/-- The third stretch is the second lookup: the rows the second index vector names, with the fill value where the range test fails. -/
theorem stage2_v9 (G : Valuation τ sig (Elt Ideal)) :
    (StableHlo.after hostOps0_2 G (Proc.devRef .tc main_v9) : S640000x128.Idx → EReal)
      = (select (broadcastInDim S640000x128 ![0] bcast_S640000_S640000x128_0 (Take.inTable (G (Proc.devRef .tc main_v3) : IVec S640000 32)))
          (Host.gather gather_S100000x128_S640000x1_S640000x128_1_0_n_n_0_1_1128 (G (Proc.devRef .tc main_arg0) : FVec Ideal S100000x128 .f32) (Take.starts (G (Proc.devRef .tc main_v3) : IVec S640000 32)))
          (broadcastInDim S640000x128 ![] bcast_S_S640000x128 (constant (F := Ideal) S_ .f32 0x7FC00000#32)) : FVec Ideal S640000x128 .f32) := by
  simp only [hostOps0_2]
  after_results_simp
  simp only [ofBuf_toBuf]
  rw [toBuf_v9]
  simp only [ofBuf_arg0, ofBuf_v3]
  unfold Take.inTable Take.starts Take.wrapped
  rfl

open Idealize.ShloMosaic.StableHlo in
/-- The third stretch leaves the first lookup's result alone. -/
theorem stage2_v8 (G : Valuation τ sig (Elt Ideal)) :
    StableHlo.after hostOps0_2 G (Proc.devRef .tc main_v8) = G (Proc.devRef .tc main_v8) := by
  simp only [hostOps0_2]
  after_results_simp

/-- The fourth stretch multiplies the two lookups elementwise. -/
theorem stage3_v10 (G : Valuation τ sig (Elt Ideal)) :
    (StableHlo.after hostOps0_3 G (Proc.devRef .tc main_v10) : S640000x128.Idx → EReal)
      = (mulf (G (Proc.devRef .tc main_v8) : FVec Ideal S640000x128 .f32) (G (Proc.devRef .tc main_v9) : FVec Ideal S640000x128 .f32) : FVec Ideal S640000x128 .f32) := by
  simp only [hostOps0_3]
  after_results

open Idealize.ShloMosaic.StableHlo in
/-- The fifth stretch (a lookup for the negative edges) leaves the product alone. -/
theorem stage4_v10 (G : Valuation τ sig (Elt Ideal)) :
    StableHlo.after hostOps0_4 G (Proc.devRef .tc main_v10) = G (Proc.devRef .tc main_v10) := by
  simp only [hostOps0_4]
  after_results_simp

open Idealize.ShloMosaic.StableHlo in
/-- The sixth stretch (the other lookup for the negative edges) leaves the product alone. -/
theorem stage5_v10 (G : Valuation τ sig (Elt Ideal)) :
    StableHlo.after hostOps0_5 G (Proc.devRef .tc main_v10) = G (Proc.devRef .tc main_v10) := by
  simp only [hostOps0_5]
  after_results_simp

/-- The last stretch rectifies the product and narrows its format. -/
theorem stage6_v16 (G : Valuation τ sig (Elt Ideal)) :
    (StableHlo.after hostOps0_6 G (Proc.devRef .tc main_v16) : S640000x128.Idx → EReal)
      = truncf .bf16 (maximumf (G (Proc.devRef .tc main_v10) : FVec Ideal S640000x128 .f32)
          (broadcastInDim S640000x128 ![] bcast_S_S640000x128 (constant (F := Ideal) S_ .f32 0x00000000#32))) bitsLt_bf16_f32 := by
  simp only [hostOps0_6]
  after_results

/-! ## The feature array as a term of the launch memory -/
/-- Row 0 of a two-row index array as a vector: the slice of the row, reshaped. -/
def row0 (a : IVec S2x640000 32) : IVec S640000 32 :=
  shapeCast S640000 (extractStridedSlice S1x640000 ![0, 0] a slices_S2x640000_S1x640000_0_0) shapeCasts_S1x640000_S640000

/-- Row 1 of a two-row index array as a vector. -/
def row1 (a : IVec S2x640000 32) : IVec S640000 32 :=
  shapeCast S640000 (extractStridedSlice S1x640000 ![1, 0] a slices_S2x640000_S1x640000_1_0) shapeCasts_S1x640000_S640000

theorem row0_apply (a : IVec S2x640000 32) (t : Fin 640000) : row0 a (ix1 t) = a (ix2 0 t) := by
  unfold row0
  rw [shapeCast_apply _ shapeCasts_S1x640000_S640000 (ix1 t) (ix2 (0 : Fin 1) t)
    (by rewrite [Shape.rowMajor_val_two, Shape.rowMajor_val_one]; show 0 * 640000 + t.val = t.val; omega)]
  exact extractStridedSlice_apply ![0, 0] a slices_S2x640000_S1x640000_0_0 (ix2 (0 : Fin 1) t) (ix2 (0 : Fin 2) t) (fun d => match d with
    | ⟨0, _⟩ => by show (0 : Nat) = 0 + 0; rfl
    | ⟨1, _⟩ => by show t.val = 0 + t.val; omega)

theorem row1_apply (a : IVec S2x640000 32) (t : Fin 640000) : row1 a (ix1 t) = a (ix2 1 t) := by
  unfold row1
  rw [shapeCast_apply _ shapeCasts_S1x640000_S640000 (ix1 t) (ix2 (0 : Fin 1) t)
    (by rewrite [Shape.rowMajor_val_two, Shape.rowMajor_val_one]; show 0 * 640000 + t.val = t.val; omega)]
  exact extractStridedSlice_apply ![1, 0] a slices_S2x640000_S1x640000_1_0 (ix2 (0 : Fin 1) t) (ix2 (1 : Fin 2) t) (fun d => match d with
    | ⟨0, _⟩ => by show (1 : Nat) = 1 + 0; rfl
    | ⟨1, _⟩ => by show t.val = 0 + t.val; omega)

/-- A row lookup with a fill value, as the host computes it. -/
def take (x : FVec Ideal S100000x128 .f32) (idx : IVec S640000 32) : FVec Ideal S640000x128 .f32 :=
  select (broadcastInDim S640000x128 ![0] bcast_S640000_S640000x128_0 (Take.inTable idx))
    (Host.gather gather_S100000x128_S640000x1_S640000x128_1_0_n_n_0_1_1128 x (Take.starts idx))
    (broadcastInDim S640000x128 ![] bcast_S_S640000x128 (constant (F := Ideal) S_ .f32 0x7FC00000#32))

/-- The feature array the region finds, as a term of the launch memory. -/
theorem posFeat_term (c : Dev nD) :
    (V m c main_v16 : S640000x128.Idx → EReal)
      = truncf .bf16 (maximumf
          (mulf (take (m ((c.tc : Thread nD τ).loc main_arg0)) (row0 (m ((c.tc : Thread nD τ).loc main_arg1))))
            (take (m ((c.tc : Thread nD τ).loc main_arg0)) (row1 (m ((c.tc : Thread nD τ).loc main_arg1)))))
          (broadcastInDim S640000x128 ![] bcast_S_S640000x128 (constant (F := Ideal) S_ .f32 0x00000000#32))) bitsLt_bf16_f32 := by
  dsimp only [Gen.V, Gen.V0]
  simp only [List.flatten_cons, List.flatten_nil, List.append_nil, StableHlo.after_append]
  rw [stage6_v16, stage5_v10, stage4_v10, stage3_v10, stage2_v8, stage2_v9, stage1_v8, stage1_arg0, stage1_v3,
    stage0_arg0, stage0_v1, stage0_v3]
  rfl

/-! ## The term is the reference's -/

/-- The two programs' gather records are the same record. -/
theorem gather_eq :
    Cert.KernelIdeal.gather_S100000x128_S640000x1_S640000x128_1_0_n_n_0_1_1128
      = Cert.ReferenceIdeal.gather_S100000x128_S640000x1_S640000x128_1_0_n_n_0_1_1128 := rfl

open Cert.ReferenceIdeal.Read in
/-- The reference's start indices of the first lookup are the wrapped row 0. -/
theorem ref_starts0 (a : IVec S2x640000 32) : val_main_v7 (F := Ideal) a = Take.starts (row0 a) := by
  unfold val_main_v7 val_main_v6 val_main_v5 val_main_v4 val_main_c_0 val_main_v3 val_main_v2 val_main_c val_main_v1 val_main_v0
    Take.starts Take.wrapped row0
  rfl

open Cert.ReferenceIdeal.Read in
/-- The reference's start indices of the second lookup are the wrapped row 1. -/
theorem ref_starts1 (a : IVec S2x640000 32) : val_main_v16 (F := Ideal) a = Take.starts (row1 a) := by
  unfold val_main_v16 val_main_v15 val_main_v14 val_main_v13 val_main_c_2 val_main_v12 val_main_v11 val_main_c_1 val_main_v10 val_main_v9
    Take.starts Take.wrapped row1
  rfl

open Cert.ReferenceIdeal.Read in
/-- The rectified product of the gathered rows, narrowed, is the reference's term. -/
theorem feat_ref (x : FVec Ideal S100000x128 .f32) (a : IVec S2x640000 32) :
    (truncf .bf16 (maximumf
        (mulf (Host.gather gather_S100000x128_S640000x1_S640000x128_1_0_n_n_0_1_1128 x (Take.starts (row0 a)))
          (Host.gather gather_S100000x128_S640000x1_S640000x128_1_0_n_n_0_1_1128 x (Take.starts (row1 a))))
        (broadcastInDim S640000x128 ![] bcast_S_S640000x128 (constant (F := Ideal) S_ .f32 0x00000000#32))) bitsLt_bf16_f32
      : S640000x128.Idx → EReal)
      = val_main_v38 (F := Ideal) x a := by
  unfold val_main_v38 val_main_v18 val_main_v8 val_main_v17 val_main_call0_v0 val_main_call0_cst
  rw [ref_starts0, ref_starts1, ← gather_eq]
  generalize Host.gather gather_S100000x128_S640000x1_S640000x128_1_0_n_n_0_1_1128 x (Take.starts (row0 a)) = A
  generalize Host.gather gather_S100000x128_S640000x1_S640000x128_1_0_n_n_0_1_1128 x (Take.starts (row1 a)) = B
  rfl

/-- The positive edges' feature array is the reference's rectified product of the rows the first index input names. -/
theorem posFeat_eq (h : Cert.Pre_KernelIdeal m) (c : Dev nD) :
    posFeat m c = Cert.ReferenceIdeal.Read.val_main_v38 (F := Ideal) (m ((c.tc : Thread nD τ).loc main_arg0)) (m ((c.tc : Thread nD τ).loc main_arg1)) := by
  have e := posFeat_term m c
  unfold take at e
  rw [Take.take_eq_gather _ _ (fun t => by rw [row0_apply]; exact IndexRange.pos_range m h c 0 t),
    Take.take_eq_gather _ _ (fun t => by rw [row1_apply]; exact IndexRange.pos_range m h c 1 t)] at e
  exact e.trans (feat_ref _ _)

end Cert.EdgeDecoder.PreludeFeat

end
-- ==== Proof.PreludeFeatNeg.lean ====
/-
  The negative edges' feature array the region finds is the reference's own rectified product, when every edge index is in
  range: the host work before the region looks up the two endpoint rows of every negative edge (with a fill value for an
  index out of range, which does not occur), multiplies them elementwise, rectifies, and narrows the format, which changes
  no value.
-/
import proofs.«420310_j23433341567203_3_alg».proof.Proof.Arrays
import proofs.«420310_j23433341567203_3_alg».proof.Proof.IndexRange
import proofs.«420310_j23433341567203_3_alg».proof.Proof.TakeInRange
import proofs.«420310_j23433341567203_3_alg».proof.Proof.Gen.ReferenceIdeal.Read

noncomputable section

namespace Cert.EdgeDecoder.PreludeFeatNeg

open Cert.KernelIdeal Cert.KernelIdeal.Gen Cert.EdgeDecoder Cert.EdgeDecoder.Arrays
open Idealize.ShloMosaic Idealize.ShloMosaic.TcCoe Idealize.SL.Sem Idealize.ShloMosaic.ValueIdx

variable (m : (ℓ : Loc nD τ sig) → Buf (Elt Ideal) ℓ)

/-- The lookup with a fill value, as the host spells it. -/
def take (x : FVec Ideal S100000x128 .f32) (idx : IVec S640000 32) : FVec Ideal S640000x128 .f32 :=
  select (broadcastInDim S640000x128 ![0] bcast_S640000_S640000x128_0 (Take.inTable idx))
    (Host.gather gather_S100000x128_S640000x1_S640000x128_1_0_n_n_0_1_1128 x (Take.starts idx))
    (broadcastInDim S640000x128 ![] bcast_S_S640000x128 (constant (F := Ideal) S_ .f32 0x7FC00000#32))

/-- Row 0 of a [2, 640000] index input as a vector. -/
def row0 (a : IVec S2x640000 32) : IVec S640000 32 :=
  shapeCast S640000 (extractStridedSlice S1x640000 ![0, 0] a slices_S2x640000_S1x640000_0_0) shapeCasts_S1x640000_S640000
/-- Row 1 of a [2, 640000] index input as a vector. -/
def row1 (a : IVec S2x640000 32) : IVec S640000 32 :=
  shapeCast S640000 (extractStridedSlice S1x640000 ![1, 0] a slices_S2x640000_S1x640000_1_0) shapeCasts_S1x640000_S640000

/-- The negative edges' feature array as a term of the launch memory: the narrowed, rectified product of the two lookups. -/
theorem negFeat_term (c : Dev nD) :
    (V m c main_v19 : S640000x128.Idx → EReal)
      = (truncf .bf16 (maximumf (mulf (take (m ((c.tc : Thread nD τ).loc main_arg0)) (row0 (m ((c.tc : Thread nD τ).loc main_arg2))))
            (take (m ((c.tc : Thread nD τ).loc main_arg0)) (row1 (m ((c.tc : Thread nD τ).loc main_arg2)))))
          (broadcastInDim S640000x128 ![] bcast_S_S640000x128 (constant (F := Ideal) S_ .f32 0x00000000#32))) bitsLt_bf16_f32 : FVec Ideal S640000x128 .bf16) := by
  dsimp only [Gen.V, Gen.V0]
  simp only [hostOps0, hostOps0_1, hostOps0_2, hostOps0_3, hostOps0_4, hostOps0_5, hostOps0_6, List.flatten_cons, List.flatten_nil, List.append_nil, List.cons_append, List.nil_append]
  -- each operation's result at its own buffer, every other buffer untouched, the typed references' transports the identity
  simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.TRef.toBuf, StableHlo.TRef.ofBuf, cast_eq]
  unfold take row0 row1 Take.inTable Take.starts Take.wrapped
  rfl

/-- Row 0 read at t is the input at (0, t). -/
theorem row0_apply (a : IVec S2x640000 32) (t : Fin 640000) : row0 a (ix1 t) = a (ix2 0 t) := by
  unfold row0
  rw [shapeCast_apply _ shapeCasts_S1x640000_S640000 (ix1 t) (ix2 (0 : Fin 1) t)
    (by rewrite [Shape.rowMajor_val_two, Shape.rowMajor_val_one]; show 0 * 640000 + t.val = t.val; omega)]
  exact extractStridedSlice_apply ![0, 0] a slices_S2x640000_S1x640000_0_0 (ix2 (0 : Fin 1) t) (ix2 (0 : Fin 2) t) (fun d => match d with
    | ⟨0, _⟩ => by show (0 : Nat) = 0 + 0; omega
    | ⟨1, _⟩ => by show t.val = 0 + t.val; omega)

/-- Row 1 read at t is the input at (1, t). -/
theorem row1_apply (a : IVec S2x640000 32) (t : Fin 640000) : row1 a (ix1 t) = a (ix2 1 t) := by
  unfold row1
  rw [shapeCast_apply _ shapeCasts_S1x640000_S640000 (ix1 t) (ix2 (0 : Fin 1) t)
    (by rewrite [Shape.rowMajor_val_two, Shape.rowMajor_val_one]; show 0 * 640000 + t.val = t.val; omega)]
  exact extractStridedSlice_apply ![1, 0] a slices_S2x640000_S1x640000_1_0 (ix2 (0 : Fin 1) t) (ix2 (1 : Fin 2) t) (fun d => match d with
    | ⟨0, _⟩ => by show (1 : Nat) = 1 + 0; omega
    | ⟨1, _⟩ => by show t.val = 0 + t.val; omega)

/-- The two programs' gather records are the same record. -/
theorem gather_eq : Cert.KernelIdeal.gather_S100000x128_S640000x1_S640000x128_1_0_n_n_0_1_1128
    = Cert.ReferenceIdeal.gather_S100000x128_S640000x1_S640000x128_1_0_n_n_0_1_1128 := rfl

/-- The reference's column of start indices for the first endpoint is the wrapped row 0. -/
theorem starts_row0 (a : IVec S2x640000 32) : Take.starts (row0 a) = Cert.ReferenceIdeal.Read.val_main_v26 (F := Ideal) a := by
  unfold Cert.ReferenceIdeal.Read.val_main_v26 Cert.ReferenceIdeal.Read.val_main_v25 Cert.ReferenceIdeal.Read.val_main_v22
    Cert.ReferenceIdeal.Read.val_main_v24 Cert.ReferenceIdeal.Read.val_main_v23 Cert.ReferenceIdeal.Read.val_main_v21
    Cert.ReferenceIdeal.Read.val_main_v20 Cert.ReferenceIdeal.Read.val_main_v19 Cert.ReferenceIdeal.Read.val_main_c_3
    Cert.ReferenceIdeal.Read.val_main_c_4 Take.starts Take.wrapped row0
  rfl

/-- The reference's column of start indices for the second endpoint is the wrapped row 1. -/
theorem starts_row1 (a : IVec S2x640000 32) : Take.starts (row1 a) = Cert.ReferenceIdeal.Read.val_main_v35 (F := Ideal) a := by
  unfold Cert.ReferenceIdeal.Read.val_main_v35 Cert.ReferenceIdeal.Read.val_main_v34 Cert.ReferenceIdeal.Read.val_main_v31
    Cert.ReferenceIdeal.Read.val_main_v33 Cert.ReferenceIdeal.Read.val_main_v32 Cert.ReferenceIdeal.Read.val_main_v30
    Cert.ReferenceIdeal.Read.val_main_v29 Cert.ReferenceIdeal.Read.val_main_v28 Cert.ReferenceIdeal.Read.val_main_c_5
    Cert.ReferenceIdeal.Read.val_main_c_6 Take.starts Take.wrapped row1
  rfl

/-- The negative edges' feature array is the reference's rectified product of the rows the second index input names. -/
theorem negFeat_eq (h : Cert.Pre_KernelIdeal m) (c : Dev nD) :
    negFeat m c = Cert.ReferenceIdeal.Read.val_main_v71 (F := Ideal) (m ((c.tc : Thread nD τ).loc main_arg0)) (m ((c.tc : Thread nD τ).loc main_arg2)) := by
  have h0 : ∀ t : Fin 640000, -100000 ≤ (row0 (m ((c.tc : Thread nD τ).loc main_arg2)) (ix1 t)).toInt
      ∧ (row0 (m ((c.tc : Thread nD τ).loc main_arg2)) (ix1 t)).toInt < 100000 := fun t => by
    rw [row0_apply]; exact IndexRange.neg_range m h c 0 t
  have h1 : ∀ t : Fin 640000, -100000 ≤ (row1 (m ((c.tc : Thread nD τ).loc main_arg2)) (ix1 t)).toInt
      ∧ (row1 (m ((c.tc : Thread nD τ).loc main_arg2)) (ix1 t)).toInt < 100000 := fun t => by
    rw [row1_apply]; exact IndexRange.neg_range m h c 1 t
  show (V m c main_v19 : S640000x128.Idx → EReal) = _
  rw [negFeat_term m c]
  unfold take
  rw [Take.take_eq_gather _ _ h0, Take.take_eq_gather _ _ h1, starts_row0, starts_row1, gather_eq]
  unfold Cert.ReferenceIdeal.Read.val_main_v71 Cert.ReferenceIdeal.Read.val_main_v37 Cert.ReferenceIdeal.Read.val_main_v27
    Cert.ReferenceIdeal.Read.val_main_v36 Cert.ReferenceIdeal.Read.val_main_call4_v0 Cert.ReferenceIdeal.Read.val_main_call4_cst
  rfl

end Cert.EdgeDecoder.PreludeFeatNeg

end
-- ==== Proof.PreludeWeights.lean ====
/-
  The weight operands the region finds, read at an element: the side-by-side array holds W1 in its columns 0 … 127 and We1 in
  its columns 128 … 255, the end-to-end bias holds b1 then be1, and narrowing a weight's format changes no value.
-/
import proofs.«420310_j23433341567203_3_alg».proof.Proof.Arrays
import proofs.«420310_j23433341567203_3_alg».proof.Proof.Spec
import Idealize.ShloMosaic.Lib.Pipeline.Value
import Idealize.ShloMosaic.Lib.ValueIdx

noncomputable section

namespace Cert.EdgeDecoder.PreludeWeights

open Cert.KernelIdeal Cert.KernelIdeal.Gen Cert.EdgeDecoder Cert.EdgeDecoder.Arrays
open Idealize.ShloMosaic Idealize.ShloMosaic.TcCoe Idealize.SL.Sem Idealize.ShloMosaic.ValueIdx

variable (m : (ℓ : Loc nD τ sig) → Buf (Elt Ideal) ℓ)

/-! ## The host operations before the region, split at the last stretch

Only the last stretch of host operations (fifteen of them) writes a weight array; the hundred and one before it are kept
folded as one valuation. -/

/-- Operations run one after the other: the contents after a concatenated line are those after its second part, from the
    contents after its first. -/
private theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- Core c's buffer contents after every stretch of host operations but the last. -/
def beforeLast (c : Dev nD) : Valuation τ sig (Elt Ideal) :=
  StableHlo.after (List.flatten [hostOps0, hostOps0_1, hostOps0_2, hostOps0_3, hostOps0_4, hostOps0_5]) (fun b => m (c, b))

/-- What the region finds in a buffer is what the last stretch leaves there, from the contents after the earlier ones. -/
theorem V_eq_last (c : Dev nD) (b : Ref sig .tc) :
    V m c b = StableHlo.after hostOps0_6 (beforeLast m c) (Proc.devRef .tc b) := by
  have hl : List.flatten [hostOps0, hostOps0_1, hostOps0_2, hostOps0_3, hostOps0_4, hostOps0_5, hostOps0_6 (F := Ideal)]
      = List.flatten [hostOps0, hostOps0_1, hostOps0_2, hostOps0_3, hostOps0_4, hostOps0_5] ++ hostOps0_6 := by
    simp only [List.flatten_cons, List.flatten_nil, List.append_nil, List.append_assoc]
  show StableHlo.after (List.flatten [hostOps0, hostOps0_1, hostOps0_2, hostOps0_3, hostOps0_4, hostOps0_5, hostOps0_6])
    (fun b => m (c, b)) (Proc.devRef .tc b) = _
  rw [hl, after_append]
  rfl

/-! The six arguments the last stretch reads are written by no host operation: before the last stretch they hold what
    they held at launch. Each time: the last stretch does not write the argument, and the region finds it as launched. -/

theorem pre_arg3 (c : Dev nD) : beforeLast m c (Proc.devRef .tc main_arg3) = m ((c.tc : Thread nD τ).loc main_arg3) := by
  refine Eq.trans ?_ ((V_eq_last m c main_arg3).symm.trans (V_main_arg3 m c))
  after_results

theorem pre_arg4 (c : Dev nD) : beforeLast m c (Proc.devRef .tc main_arg4) = m ((c.tc : Thread nD τ).loc main_arg4) := by
  refine Eq.trans ?_ ((V_eq_last m c main_arg4).symm.trans (V_main_arg4 m c))
  after_results

theorem pre_arg5 (c : Dev nD) : beforeLast m c (Proc.devRef .tc main_arg5) = m ((c.tc : Thread nD τ).loc main_arg5) := by
  refine Eq.trans ?_ ((V_eq_last m c main_arg5).symm.trans (V_main_arg5 m c))
  after_results

theorem pre_arg7 (c : Dev nD) : beforeLast m c (Proc.devRef .tc main_arg7) = m ((c.tc : Thread nD τ).loc main_arg7) := by
  refine Eq.trans ?_ ((V_eq_last m c main_arg7).symm.trans (V_main_arg7 m c))
  after_results

theorem pre_arg8 (c : Dev nD) : beforeLast m c (Proc.devRef .tc main_arg8) = m ((c.tc : Thread nD τ).loc main_arg8) := by
  refine Eq.trans ?_ ((V_eq_last m c main_arg8).symm.trans (V_main_arg8 m c))
  after_results

theorem pre_arg9 (c : Dev nD) : beforeLast m c (Proc.devRef .tc main_arg9) = m ((c.tc : Thread nD τ).loc main_arg9) := by
  refine Eq.trans ?_ ((V_eq_last m c main_arg9).symm.trans (V_main_arg9 m c))
  after_results

/-! ## What the host wrote into each weight array before the region, as a term over the launch memory -/

/-- The side-by-side array is the narrowing of the concatenation, along the columns, of the third and the seventh argument. -/
theorem wcat_term (c : Dev nD) :
    wcat m c = (truncf .bf16
      (concatenate S128x256 1
        [⟨S128x128, (m ((c.tc : Thread nD τ).loc main_arg3) : FVec Ideal S128x128 .f32)⟩,
         ⟨S128x128, (m ((c.tc : Thread nD τ).loc main_arg7) : FVec Ideal S128x128 .f32)⟩]
        concatenates_S128x128_S128x128_S128x256_d1 : FVec Ideal S128x256 .f32)
      bitsLt_bf16_f32 : FVec Ideal S128x256 .bf16) := by
  show V m c main_v21 = _
  rw [V_eq_last, ← pre_arg3 m c, ← pre_arg7 m c]
  after_results

/-- The end-to-end bias is the concatenation of the fourth and the eighth argument. -/
theorem bcat_term (c : Dev nD) :
    bcat m c = (concatenate S256 0
        [⟨S128, (m ((c.tc : Thread nD τ).loc main_arg4) : FVec Ideal S128 .f32)⟩,
         ⟨S128, (m ((c.tc : Thread nD τ).loc main_arg8) : FVec Ideal S128 .f32)⟩]
        concatenates_S128_S128_S256_d0 : FVec Ideal S256 .f32) := by
  show V m c main_v22 = _
  rw [V_eq_last, ← pre_arg4 m c, ← pre_arg8 m c]
  after_results

/-- W2 as the region finds it is the narrowing of the fifth argument. -/
theorem w2_term (c : Dev nD) :
    w2 m c = (truncf .bf16 (m ((c.tc : Thread nD τ).loc main_arg5) : FVec Ideal S128x4 .f32) bitsLt_bf16_f32 :
      FVec Ideal S128x4 .bf16) := by
  show V m c main_v23 = _
  rw [V_eq_last, ← pre_arg5 m c]
  after_results

/-- We1 as the region finds it is the narrowing of the seventh argument. -/
theorem we1_term (c : Dev nD) :
    we1 m c = (truncf .bf16 (m ((c.tc : Thread nD τ).loc main_arg7) : FVec Ideal S128x128 .f32) bitsLt_bf16_f32 :
      FVec Ideal S128x128 .bf16) := by
  show V m c main_v24 = _
  rw [V_eq_last, ← pre_arg7 m c]
  after_results

/-- We2 as the region finds it is the narrowing of the ninth argument. -/
theorem we2_term (c : Dev nD) :
    we2 m c = (truncf .bf16 (m ((c.tc : Thread nD τ).loc main_arg9) : FVec Ideal S128x1 .f32) bitsLt_bf16_f32 :
      FVec Ideal S128x1 .bf16) := by
  show V m c main_v25 = _
  rw [V_eq_last, ← pre_arg9 m c]
  after_results

/-! ## The same, read at an element -/

/-- Column q < 128 of the side-by-side array lies in the first piece, at the same coordinates; the narrowing changes no
    value. -/
theorem wcat_lo (c : Dev nD) (k q : Fin 128) :
    wcat m c (ix2 k (lo q)) = (m ((c.tc : Thread nD τ).loc main_arg3) : FVec Ideal S128x128 .f32) (ix2 k q) := by
  rw [wcat_term, truncf_apply]
  refine concatenate_pair_apply_left (t := S128x256) (s₁ := S128x128) (s₂ := S128x128) 1 _ _ _ (ix2 k (lo q)) rfl (ix2 k q) ?_
  intro b
  match b with
  | ⟨0, _⟩ => rfl
  | ⟨1, _⟩ => rfl

/-- Column 128 + q of the side-by-side array lies in the second piece, at column q. -/
theorem wcat_hi (c : Dev nD) (k q : Fin 128) :
    wcat m c (ix2 k (hi q)) = (m ((c.tc : Thread nD τ).loc main_arg7) : FVec Ideal S128x128 .f32) (ix2 k q) := by
  rw [wcat_term, truncf_apply]
  refine concatenate_pair_apply_right (t := S128x256) (s₁ := S128x128) (s₂ := S128x128) 1 _ _ _ (ix2 k (hi q)) rfl rfl
    (ix2 k q) ?_ ?_
  · intro b hb
    match b with
    | ⟨0, _⟩ => rfl
    | ⟨1, _⟩ => exact absurd rfl hb
  · show q.val + 128 = 128 + q.val
    omega

/-- Entry q < 128 of the end-to-end bias lies in the first piece. -/
theorem bcat_lo (c : Dev nD) (q : Fin 128) :
    bcat m c (ix1 (lo q)) = (m ((c.tc : Thread nD τ).loc main_arg4) : FVec Ideal S128 .f32) (ix1 q) := by
  rw [bcat_term]
  refine concatenate_pair_apply_left (t := S256) (s₁ := S128) (s₂ := S128) 0 _ _ _ (ix1 (lo q)) rfl (ix1 q) ?_
  intro b
  match b with
  | ⟨0, _⟩ => rfl

/-- Entry 128 + q of the end-to-end bias lies in the second piece, at entry q. -/
theorem bcat_hi (c : Dev nD) (q : Fin 128) :
    bcat m c (ix1 (hi q)) = (m ((c.tc : Thread nD τ).loc main_arg8) : FVec Ideal S128 .f32) (ix1 q) := by
  rw [bcat_term]
  refine concatenate_pair_apply_right (t := S256) (s₁ := S128) (s₂ := S128) 0 _ _ _ (ix1 (hi q)) rfl rfl (ix1 q) ?_ ?_
  · intro b hb
    match b with
    | ⟨0, _⟩ => exact absurd rfl hb
  · show q.val + 128 = 128 + q.val
    omega

theorem w2_eq (c : Dev nD) (i : S128x4.Idx) :
    w2 m c i = (m ((c.tc : Thread nD τ).loc main_arg5) : FVec Ideal S128x4 .f32) i := by
  rw [w2_term, truncf_apply]

theorem we1_eq (c : Dev nD) (i : S128x128.Idx) :
    we1 m c i = (m ((c.tc : Thread nD τ).loc main_arg7) : FVec Ideal S128x128 .f32) i := by
  rw [we1_term, truncf_apply]

theorem we2_eq (c : Dev nD) (i : S128x1.Idx) :
    we2 m c i = (m ((c.tc : Thread nD τ).loc main_arg9) : FVec Ideal S128x1 .f32) i := by
  rw [we2_term, truncf_apply]

theorem b2_eq (c : Dev nD) : b2 m c = m ((c.tc : Thread nD τ).loc main_arg6) := V_main_arg6 m c
theorem be1_eq (c : Dev nD) : be1 m c = m ((c.tc : Thread nD τ).loc main_arg8) := V_main_arg8 m c
theorem be2_eq (c : Dev nD) : be2 m c = m ((c.tc : Thread nD τ).loc main_arg10) := V_main_arg10 m c

end Cert.EdgeDecoder.PreludeWeights

end
-- ==== Proof.Tail.lean ====
/-
  After the region the host reshapes each [640000, 1] score column to a vector of 640000: entry t of the vector is entry
  (t, 0) of the column.
-/
import proofs.«420310_j23433341567203_3_alg».proof.Proof.Arrays
import Idealize.ShloMosaic.Lib.Pipeline.Value
import Idealize.ShloMosaic.Lib.ValueIdx

noncomputable section

namespace Cert.EdgeDecoder.Tail

open Cert.KernelIdeal Cert.KernelIdeal.Gen Cert.EdgeDecoder Cert.EdgeDecoder.Arrays
open Idealize.ShloMosaic Idealize.ShloMosaic.TcCoe Idealize.SL.Sem Idealize.ShloMosaic.ValueIdx

variable (m : (ℓ : Loc nD τ sig) → Buf (Elt Ideal) ℓ)

/-- The second result is the positive-edge column with its unit axis dropped. -/
theorem posRes_eq (c : Dev nD) :
    posRes m c = shapeCast S640000 (posOut m c) shapeCasts_S640000x1_S640000 := by
  show Pipeline.afterTail₀ cfgs (dats m) 0 (V0 m) [hostOps1] c main_v27 = _
  unfold Pipeline.afterTail₀
  show StableHlo.after hostOps1 _ (Proc.devRef .tc main_v27) = _
  after_results
  show (fun i => shapeCast S640000 (Pipeline.withArrays spec0 c (V0 m c) (fun w => (dats m 0 c).arrAt w cfg0.N)
      (Proc.devRef .tc (Pipeline.arrRef spec0 11))) shapeCasts_S640000x1_S640000 i) = _
  rw [Pipeline.withArrays_arr spec0 launch0.win.arr_inj]

/-- The third result is the negative-edge column with its unit axis dropped. -/
theorem negRes_eq (c : Dev nD) :
    negRes m c = shapeCast S640000 (negOut m c) shapeCasts_S640000x1_S640000 := by
  show Pipeline.afterTail₀ cfgs (dats m) 0 (V0 m) [hostOps1] c main_v28 = _
  unfold Pipeline.afterTail₀
  show StableHlo.after hostOps1 _ (Proc.devRef .tc main_v28) = _
  after_results
  show (fun i => shapeCast S640000 (Pipeline.withArrays spec0 c (V0 m c) (fun w => (dats m 0 c).arrAt w cfg0.N)
      (Proc.devRef .tc (Pipeline.arrRef spec0 12))) shapeCasts_S640000x1_S640000 i) = _
  rw [Pipeline.withArrays_arr spec0 launch0.win.arr_inj]

/-- A [n, 1] column cast to a vector of n reads, at t, the column at (t, 0): both sit at row-major position t. -/
theorem column_at {n : Nat} {α : Type} (x : (⟨2, ![n, 1]⟩ : Shape).Idx → α)
    (h : (⟨2, ![n, 1]⟩ : Shape).ShapeCasts ⟨1, ![n]⟩) (t : Fin n) :
    shapeCast ⟨1, ![n]⟩ x h (ix1 t) = x (ix2 t (0 : Fin 1)) := by
  refine shapeCast_apply x h _ _ ?_
  rw [Shape.rowMajor_val_two, Shape.rowMajor_val_one]
  show t.val * 1 + 0 = t.val
  rw [Nat.mul_one, Nat.add_zero]

/-- The second result at edge t is the positive-edge column at (t, 0). -/
theorem posRes_at (c : Dev nD) (t : Fin 640000) : posRes m c (ix1 t) = posOut m c (ix2 t (0 : Fin 1)) := by
  rw [posRes_eq]
  exact column_at _ _ t

/-- The third result at edge t is the negative-edge column at (t, 0). -/
theorem negRes_at (c : Dev nD) (t : Fin 640000) : negRes m c (ix1 t) = negOut m c (ix2 t (0 : Fin 1)) := by
  rw [negRes_eq]
  exact column_at _ _ t

end Cert.EdgeDecoder.Tail

end
-- ==== Proof.lean ====
/-
  Edge decoders of a link-prediction model: a Pallas kernel against its jnp reference, equal over the extended reals.

  Both programs look up, for each of 640000 positive and 640000 negative edges, the two endpoint rows of a [100000, 128]
  embedding table, multiply them elementwise and rectify: the edge's feature row e. The attribute decoder is
  σ (relu (e · W1 + b1) · W2 + b2) (four outputs per positive edge) and the edge decoder σ (relu (e · We1 + be1) · We2 + be2)
  (one output per positive and per negative edge), with σ z = 1 / (1 + exp (−z)). The kernel computes the two first layers
  of a positive edge with ONE product against W1 and We1 laid side by side, on blocks of 5000 edges; the reference computes
  each layer on the whole arrays. With exact arithmetic the two agree entry by entry (Proof/Spec.lean is the one definition
  both sides instantiate): a product against the side-by-side array, read in its left or right half of columns, is the
  product against that half; a block's rows are the array's rows; narrowing a format changes no value.

  The lookups differ outside the table: the reference counts a negative index from the end and lets the gather clamp; the
  kernel does the same and then replaces a row whose index is still outside [0, 99999] by a fill value. The precondition
  therefore asks, beside finite float inputs, that every edge index lie in [-100000, 100000) — where both lookups are the
  same rows (Proof/TakeInRange.lean, Proof/IndexRange.lean).

  The three frames: the two kernels' are the generated frame certificates; the reference's is its generated run with the
  results dropped. The idealization rewrote nothing, so its ledger is empty.
-/
import proofs.«420310_j23433341567203_3_alg».proof.Defs
import proofs.«420310_j23433341567203_3_alg».proof.Proof.Gen.Kernel
import proofs.«420310_j23433341567203_3_alg».proof.Proof.Gen.Kernel.Frame
import proofs.«420310_j23433341567203_3_alg».proof.Proof.Gen.KernelIdeal
import proofs.«420310_j23433341567203_3_alg».proof.Proof.Gen.KernelIdeal.Frame
import proofs.«420310_j23433341567203_3_alg».proof.Proof.Gen.ReferenceIdeal
import proofs.«420310_j23433341567203_3_alg».proof.Proof.Gen.Pre_finite_inputs
import proofs.«420310_j23433341567203_3_alg».proof.Proof.Gen.ReferenceIdeal.Run
import proofs.«420310_j23433341567203_3_alg».proof.Proof.Gen.ReferenceIdeal.Read
import proofs.«420310_j23433341567203_3_alg».proof.Proof.Arrays
import proofs.«420310_j23433341567203_3_alg».proof.Proof.Blocks
import proofs.«420310_j23433341567203_3_alg».proof.Proof.RefSpec
import proofs.«420310_j23433341567203_3_alg».proof.Proof.PreludeFeat
import proofs.«420310_j23433341567203_3_alg».proof.Proof.PreludeFeatNeg
import proofs.«420310_j23433341567203_3_alg».proof.Proof.PreludeWeights
import proofs.«420310_j23433341567203_3_alg».proof.Proof.Tail
import Idealize.ShloMosaic.Adequacy
import Idealize.ShloMosaic.Init

noncomputable section

namespace Cert.Proof

open Idealize.ShloMosaic Idealize.ShloMosaic.TcCoe Idealize.SL.Sem Idealize.ShloMosaic.ValueIdx
open Cert.EdgeDecoder Cert.EdgeDecoder.Arrays

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- A decoder head depends only on the numbers it is given: equal feature rows, weights and biases give equal outputs. -/
theorem head_congr {n : Nat} {e e' : Fin 128 → EReal} {W W' : Fin 128 → Fin 128 → EReal} {b b' : Fin 128 → EReal}
    {U U' : Fin 128 → Fin n → EReal} {d d' : Fin n → EReal} (he : ∀ k, e k = e' k) (hW : ∀ k q, W k q = W' k q)
    (hb : ∀ q, b q = b' q) (hU : ∀ q j, U q j = U' q j) (hd : ∀ j, d j = d' j) (j : Fin n) :
    head e W b U d j = head e' W' b' U' d' j := by
  obtain rfl : e = e' := funext he
  obtain rfl : W = W' := funext fun k => funext (hW k)
  obtain rfl : b = b' := funext hb
  obtain rfl : U = U' := funext fun q => funext (hU q)
  obtain rfl : d = d' := funext hd
  rfl

/-- Both programs end with the same three arrays: entry by entry each is the decoder head (Proof/Spec.lean) of the edge's
    feature row, the kernel's read off its blocks and the reference's off its host operations, at feature rows and weights
    that are the same numbers. -/
theorem algebraic : Cert.algebraic_KernelIdeal_ReferenceIdeal := by
  intro m ρ m' ρ' hpre hagree
  refine ⟨fun c => attrOut m c, fun c => posRes m c, fun c => negRes m c, kernel_run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10⟩ := hagree c
  refine ⟨h0.trans ?_, h1.trans ?_, h2.trans ?_, hargs⟩
  · rw [Cert.ReferenceIdeal.Read.val_main_v53_eq, a0, a1, a3, a4, a5, a6]
    funext i
    obtain ⟨t, j, rfl⟩ : ∃ (t : Fin 640000) (j : Fin 4), i = ix2 t j := ⟨i 0, i 1, eq_ix2 i⟩
    show _ = attrOut m c (ix2 t j)
    rw [Ref.attr_at, Blocks.attr_final m c t j, PreludeFeat.posFeat_eq m hpre c]
    exact head_congr (fun _ => rfl) (fun k q => (PreludeWeights.wcat_lo m c k q).symm) (fun q => (PreludeWeights.bcat_lo m c q).symm)
      (fun q j => (PreludeWeights.w2_eq m c (ix2 q j)).symm) (fun j => (congrFun (PreludeWeights.b2_eq m c) (ix1 j)).symm) j
  · rw [Cert.ReferenceIdeal.Read.val_main_v70_eq, a0, a1, a7, a8, a9, a10]
    funext i
    obtain ⟨t, rfl⟩ : ∃ t : Fin 640000, i = ix1 t := ⟨i 0, eq_ix1 i⟩
    show _ = posRes m c (ix1 t)
    rw [Ref.pos_at, Tail.posRes_at m c t, Blocks.pos_final m c t 0, PreludeFeat.posFeat_eq m hpre c]
    exact head_congr (fun _ => rfl) (fun k q => (PreludeWeights.wcat_hi m c k q).symm) (fun q => (PreludeWeights.bcat_hi m c q).symm)
      (fun q j => (PreludeWeights.we2_eq m c (ix2 q j)).symm) (fun j => (congrFun (PreludeWeights.be2_eq m c) (ix1 j)).symm) 0
  · rw [Cert.ReferenceIdeal.Read.val_main_v87_eq, a0, a2, a7, a8, a9, a10]
    funext i
    obtain ⟨t, rfl⟩ : ∃ t : Fin 640000, i = ix1 t := ⟨i 0, eq_ix1 i⟩
    show _ = negRes m c (ix1 t)
    rw [Ref.neg_at, Tail.negRes_at m c t, Blocks.neg_final m c t 0, PreludeFeatNeg.negFeat_eq m hpre c]
    exact head_congr (fun _ => rfl) (fun k q => (PreludeWeights.we1_eq m c (ix2 k q)).symm) (fun q => (congrFun (PreludeWeights.be1_eq m c) (ix1 q)).symm)
      (fun q j => (PreludeWeights.we2_eq m c (ix2 q j)).symm) (fun j => (congrFun (PreludeWeights.be2_eq m c) (ix1 j)).symm) 0

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
